-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S32000x4096 : Shape := ⟨2, ![32000, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v8 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v8 main_v17
  main_v18

def fn {F : FTy → Type} [FloatOps F] (main_arg0 : FVec F S8192x4096 .f32) (main_arg1 : FVec F S32000x4096 .f32) (main_arg2 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 32 := constantI S_ 32 32000#32
  let main_v11 : IVec S8192 32 := broadcastInDim S8192 ![] bcast_S_S8192 main_c_3
  let main_v12 : IVec S8192 1 := cmpi .slt main_arg2 main_v11
  let main_v13 : IVec S8192 1 := andi main_v10 main_v12
  let main_c_4 : IVec S_ 32 := constantI S_ 32 4294967196#32
  let main_v14 : IVec S8192 32 := broadcastInDim S8192 ![] bcast_S_S8192 main_c_4
  let main_v15 : IVec S8192 1 := cmpi .eq main_arg2 main_v14
  let main_v16 : IVec S8192 1 := ori main_v13 main_v15
  fn_part1 (F := F) main_v8 main_v16
-- ==== Kernel.lean ====
abbrev S8192x4096 : Shape := ⟨2, ![8192, 4096]⟩
abbrev S32000x4096 : Shape := ⟨2, ![32000, 4096]⟩
abbrev S8192 : Shape := ⟨1, ![8192]⟩
abbrev S8192x1 : Shape := ⟨2, ![8192, 1]⟩
abbrev S2048x4096 : Shape := ⟨2, ![2048, 4096]⟩
abbrev S256x4096 : Shape := ⟨2, ![256, 4096]⟩
abbrev S2048x1 : Shape := ⟨2, ![2048, 1]⟩
abbrev S2048x256 : Shape := ⟨2, ![2048, 256]⟩
abbrev S2048 : Shape := ⟨1, ![2048]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S32000x4096, .f32⟩
  | .hbm, ⟨2, _⟩ => ⟨S8192, .i32⟩
  | .hbm, ⟨3, _⟩ => ⟨S8192x4096, .bf16⟩
  | .hbm, ⟨4, _⟩ => ⟨S8192x1, .i32⟩
  | .hbm, ⟨5, _⟩ => ⟨S8192x1, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S8192, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S2048x4096, .bf16⟩
  | .local _ .vmem, ⟨1, _⟩ => ⟨S256x4096, .f32⟩
  | .local _ .vmem, ⟨2, _⟩ => ⟨S256x4096, .f32⟩
  | .local _ .vmem, ⟨3, _⟩ => ⟨S2048x1, .i32⟩
  | .local _ .vmem, ⟨4, _⟩ => ⟨S2048x1, .i32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 125], ![false, false]⟩

def k0_cond2 (i : grid0.Coords) : BitVec 1 :=
  let arg1 : BitVec 32 := BitVec.ofNat 32 (i 1).val
  let c124_i32 : BitVec 32 := 124#32
  let v46 : BitVec 1 := Scalar.cmpi .eq arg1 c124_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  shapeCasts_S8192_S8192x1 : S8192.ShapeCasts S8192x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x4096_S256x4096_0_0 : ∀ a, (![0, 0] : Fin 2 → Nat) a + S256x4096.size a ≤ S256x4096.size a
  h_S256x4096 : 0 < S256x4096.numel
  iota_S2048x256_d1_w32 : S2048x256.Iotas .tc 32 [1]
  broadcasts_S2048x1_S2048x256 : S2048x1.Broadcasts S2048x256
  reduces_S2048x256_S2048 : S2048x256.Reduces [1] S2048
  shapeCasts_S2048_S2048x1 : S2048.ShapeCasts S2048x1
  bcast_S_S8192 : S_.BroadcastsInDim S8192 (![] : Fin 0 → Fin S8192.rank)
  natLt_1_32 : 1 < 32
  reducesTo_S8192_S_d0 : S8192.ReducesTo [0] S_
  h_S_ : 0 < S_.numel
  reducesTo_S8192x1_S_d0_1 : S8192x1.ReducesTo [0, 1] S_
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S32000x4096.size a
  hwx0_1 : ∀ i : grid0.Coords, EltTy.bits .f32 = 32 ∨ (Rect.block (s := S32000x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .i32 = 32 ∨ (Rect.block (s := S8192x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_v0) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S32000x4096 : Shape := ⟨2, ![32000, 4096]⟩
abbrev S8192 : Shape := ⟨1, ![8192]⟩
abbrev S8192x32000 : Shape := ⟨2, ![8192, 32000]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S32000x4096, .f32⟩
  | .hbm, ⟨2, _⟩ => ⟨S8192, .i32⟩
  | .hbm, ⟨3, _⟩ => ⟨S8192x32000, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x32000, .f32⟩
  | .hbm, ⟨11, _⟩ => ⟨S8192x32000, .f32⟩
  | .hbm, ⟨12, _⟩ => ⟨S8192x32000, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S8192x32000, .f32⟩
  | .hbm, ⟨18, _⟩ => ⟨S8192x32000, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S_, .i32⟩
  | .hbm, ⟨28, _⟩ => ⟨S8192x1, .i32⟩
  | .hbm, ⟨29, _⟩ => ⟨S8192x1, .i1⟩
  | .hbm, ⟨30, _⟩ => ⟨S_, .i32⟩
  | .hbm, ⟨31, _⟩ => ⟨S8192x1, .i32⟩
  | .hbm, ⟨32, _⟩ => ⟨S8192x1, .i32⟩
  | .hbm, ⟨33, _⟩ => ⟨S8192x1, .i32⟩
  | .hbm, ⟨34, _⟩ => ⟨S8192x1x1, .i32⟩
  | .hbm, ⟨35, _⟩ => ⟨S1, .i32⟩
  | .hbm, ⟨36, _⟩ => ⟨S_, .i32⟩
  | .hbm, ⟨37, _⟩ => ⟨S8192x1x1, .i32⟩
  | .hbm, ⟨38, _⟩ => ⟨S8192x1x1, .i1⟩
  | .hbm, ⟨39, _⟩ => ⟨S1x1x1, .i32⟩
  | .hbm, ⟨40, _⟩ => ⟨S8192x1x1, .i32⟩
  | .hbm, ⟨41, _⟩ => ⟨S8192x1x1, .i1⟩
  | .hbm, ⟨42, _⟩ => ⟨S8192x1x1, .i1⟩
  | .hbm, ⟨43, _⟩ => ⟨S_, .i1⟩
  | .hbm, ⟨44, _⟩ => ⟨S8192x1, .i1⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v4 : Ref sig .tc := ⟨.hbm, 25, rfl⟩
abbrev main_v5 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_call3_v0 : Ref sig .tc := ⟨.hbm, 52, rfl⟩
abbrev main_call3_v1 : Ref sig .tc := ⟨.hbm, 53, rfl⟩
abbrev main_v9 : Ref sig .tc := ⟨.hbm, 54, rfl⟩
abbrev main_v10 : Ref sig .tc := ⟨.hbm, 55, rfl⟩
abbrev main_c_1 : Ref sig .tc := ⟨.hbm, 56, rfl⟩
abbrev main_v11 : Ref sig .tc := ⟨.hbm, 57, rfl⟩
abbrev main_c_2 : Ref sig .tc := ⟨.hbm, 58, rfl⟩
abbrev main_v12 : Ref sig .tc := ⟨.hbm, 59, rfl⟩
abbrev main_v13 : Ref sig .tc := ⟨.hbm, 60, rfl⟩
abbrev main_cst_3 : Ref sig .tc := ⟨.hbm, 61, rfl⟩
abbrev main_v14 : Ref sig .tc := ⟨.hbm, 62, rfl⟩
abbrev main_v15 : Ref sig .tc := ⟨.hbm, 63, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  natLt_1_32 : 1 < 32
  reducesTo_S8192_S_d0 : S8192.ReducesTo [0] S_
  dot_S8192x4096_S32000x4096_S8192x32000_1_1_0_0_n_n_wf : DotDims.WF S8192x4096 S32000x4096 S8192x32000 [1] [1] [0] [0] [] []
  gather_S8192x32000_S8192x1x1_S8192x1_n_1_0_0_1_2_11_wf : GatherDims.WF S8192x32000 S8192x1x1 S8192x1 [] [1] [0] [1] [0] 2 ![1, 1]

variable [Facts₀]

def dot_S8192x4096_S32000x4096_S8192x32000_1_1_0_0_n_n : DotDims S8192x4096 S32000x4096 S8192x32000 where
  lhsContracting := [1]
  rhsContracting := [1]
  lhsNonContracting := [0]
  rhsNonContracting := [0]
  lhsBatch := []
  rhsBatch := []
  wf := dot_S8192x4096_S32000x4096_S8192x32000_1_1_0_0_n_n_wf
def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.Spec.lean ====
/-
  The cross-entropy of a linear layer, row by row, on the extended reals.

  A row of the input, X R ·, is scored against every class c by the inner product
    logit R c = ∑ h, X R h · W c h          (8192 rows, 32000 classes, 4096 features).
  For one row of scores L : classes → extended reals and a label word t the loss of the row is
    0                                        when t is the ignored label (−100),
    (max L + log ∑ c, e^(L c − max L)) − L t  otherwise,
  the log-sum-exp of the scores minus the label's score. The label's score is written as the sum over all
  classes of the scores whose class number is the label (one term when the label is a class number).

  The classes are taken in 125 consecutive tiles of 256. After the first v tiles the classes seen are
  those numbered below 256·v, and the three running quantities over them are
    mAt L v = the maximum,  lAt L v = ∑ e^(L c − mAt L v),  gAt L t v = the label's score if seen, else 0.
  After all 125 tiles every class has been seen.
-/
import Idealize.ShloMosaic.PureOps.Ideal
import Idealize.ShloMosaic.Lib.ValueIdx

noncomputable section

open scoped BigOperators

namespace Cert.Spec

open Idealize.ShloMosaic Idealize.ShloMosaic.ValueIdx

/-- The shapes of the three arguments: inputs [8192 × 4096], weights [32000 × 4096], labels [8192]. -/
abbrev SX : Shape := ⟨2, ![8192, 4096]⟩
abbrev SW : Shape := ⟨2, ![32000, 4096]⟩
abbrev ST : Shape := ⟨1, ![8192]⟩

/-- The ignored label, −100 as a 32-bit word. -/
abbrev ignoreWord : BitVec 32 := 4294967196#32

/-- Every entry is a real number. -/
def AllReal {ι : Type} (f : ι → EReal) : Prop := ∀ i, ∃ r : ℝ, f i = (r : EReal)

/-- Every label is the ignored one or a class number. -/
def LabelsOk (T : ST.Idx → BitVec 32) : Prop :=
  ∀ R : Fin 8192, T (ix1 R) = ignoreWord ∨ (0 ≤ (T (ix1 R)).toInt ∧ (T (ix1 R)).toInt < 32000)

/-- The score of class c on row R. -/
def logit (X : SX.Idx → EReal) (W : SW.Idx → EReal) (R : Fin 8192) (c : Fin 32000) : EReal :=
  ∑ h : Fin 4096, X (ix2 R h) * W (ix2 c h)

/-- The classes of the first v tiles. -/
def seen (v : ℕ) : Finset (Fin 32000) := Finset.univ.filter (fun c => c.val < 256 * v)

/-- Class k of tile v. -/
def col (v : Fin 125) (k : Fin 256) : Fin 32000 := ⟨256 * v.val + k.val, by have := v.isLt; have := k.isLt; omega⟩

/-- The running maximum after v tiles. -/
def mAt (L : Fin 32000 → EReal) (v : ℕ) : EReal := (seen v).sup L

/-- The running sum of weights after v tiles, against the running maximum. -/
def lAt (L : Fin 32000 → EReal) (v : ℕ) : EReal := ∑ c ∈ seen v, Ideal.exp (L c - mAt L v)

/-- The label's score among the classes of the first v tiles. -/
def gAt (L : Fin 32000 → EReal) (t : BitVec 32) (v : ℕ) : EReal :=
  ∑ c ∈ seen v, if BitVec.ofNat 32 c.val = t then L c else 0

/-- The loss of one row of scores against a label word. -/
def rowNll (L : Fin 32000 → EReal) (t : BitVec 32) : EReal :=
  if t = ignoreWord then 0 else (mAt L 125 + Ideal.log (lAt L 125)) - gAt L t 125

/-- The loss of row R. -/
def nll (X : SX.Idx → EReal) (W : SW.Idx → EReal) (T : ST.Idx → BitVec 32) (R : Fin 8192) : EReal :=
  rowNll (logit X W R) (T (ix1 R))

/-- The sum of the rows' losses. -/
def total (X : SX.Idx → EReal) (W : SW.Idx → EReal) (T : ST.Idx → BitVec 32) : EReal :=
  ∑ R : Fin 8192, nll X W T R

/-- Scores of real inputs and weights are real. -/
theorem logit_real (X : SX.Idx → EReal) (W : SW.Idx → EReal) (hX : AllReal X) (hW : AllReal W) (R : Fin 8192) :
    AllReal (logit X W R) := by
  classical
  intro c
  choose xr hxr using hX
  choose wr hwr using hW
  refine ⟨∑ h : Fin 4096, xr (ix2 R h) * wr (ix2 c h), ?_⟩
  unfold logit
  have : ∀ (s : Finset (Fin 4096)), (∑ h ∈ s, X (ix2 R h) * W (ix2 c h)) = ((∑ h ∈ s, xr (ix2 R h) * wr (ix2 c h) : ℝ) : EReal) := by
    intro s
    induction s using Finset.induction_on with
    | empty => simp
    | insert a s ha ih => rw [Finset.sum_insert ha, Finset.sum_insert ha, ih, hxr, hwr, EReal.coe_add, EReal.coe_mul]
  exact this Finset.univ

end Cert.Spec

end
-- ==== Proof.LibOnlineSoftmax.lean ====
/-
  The online softmax over a finite set of positions, on the extended reals.

  Positions `p` carry a score `x p`, an additive mask `w p` and a value `v p`, all real numbers (as extended
  reals). For a finite set `S` of positions the state of a streaming softmax is the triple
    M = max over S of x,   L = ∑ p ∈ S, e^(x p + w p - M),   A = ∑ p ∈ S, e^(x p + w p - M) · v p,
  with `M = ⊥` and `L = A = 0` on the empty set. Taking in a further nonempty set `T` of positions, disjoint
  from `S`, the new maximum is `M' = max M (max over T of x)` and the old sums are rescaled by `e^(M - M')`:
    L' = e^(M - M') · L + ∑ p ∈ T, e^(x p + w p - M'),
  and likewise for `A`. The rescaling is exact: `e^(M - M') · e^(x + w - M) = e^(x + w - M')` for real
  numbers, and on the empty set `e^(⊥ - M') · 0 = 0`. So the triple after `S ∪ T` is again the state of
  `S ∪ T`, whatever the order and grouping in which positions arrive.
-/
import Idealize.ShloMosaic.PureOps.Ideal

noncomputable section

open scoped BigOperators

namespace Cert.Lib.OnlineSoftmax

open Idealize.ShloMosaic

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact IsReal.add (hf a (Finset.mem_insert_self a s)) (ih (fun i hi => hf i (Finset.mem_insert_of_mem hi)))

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold of `max` from `⊥` is the supremum. -/
theorem fold_max_bot_eq_sup {ι : Type*} (s : Finset ι) (f : ι → EReal) : s.fold max ⊥ f = s.sup f := by
  classical
  induction s using Finset.induction_on with
  | empty => simp
  | insert a s ha ih => rw [Finset.fold_insert ha, Finset.sup_insert, ih]

variable {P : Type*} [DecidableEq P]

/-- The maximum of real scores over a nonempty set is a real number. -/
theorem sup_isReal (x : P → EReal) (hx : ∀ p, IsReal (x p)) (S : Finset P) (hS : S.Nonempty) : IsReal (S.sup x) := by
  obtain ⟨p, _, hp⟩ := Finset.exists_mem_eq_sup S hS x
  rw [hp]
  exact hx p

/-- The weight of position `p` against the maximum `M`. -/
def wt (x w : P → EReal) (M : EReal) (p : P) : EReal := Ideal.exp (x p + w p - M)

/-- The maximum after taking in `T`. -/
theorem step_max (x : P → EReal) (S T : Finset P) : max (S.sup x) (T.sup x) = (S ∪ T).sup x := by
  exact Finset.sup_union.symm

/-- The weighted sum after taking in `T`: the old sum rescaled plus the new positions' terms. -/
theorem step_acc (x w v : P → EReal) (hx : ∀ p, IsReal (x p)) (hw : ∀ p, IsReal (w p)) (hv : ∀ p, IsReal (v p))
    (S T : Finset P) (hST : Disjoint S T) (hT : T.Nonempty) :
    Ideal.exp (S.sup x - (S ∪ T).sup x) * (∑ p ∈ S, wt x w (S.sup x) p * v p)
        + ∑ p ∈ T, wt x w ((S ∪ T).sup x) p * v p
      = ∑ p ∈ S ∪ T, wt x w ((S ∪ T).sup x) p * v p := by
  classical
  -- real witnesses for the scores, the masks and the values
  choose xr hxr using hx
  choose wr hwr using hw
  choose vr hvr using hv
  obtain rfl : x = fun p => (xr p : EReal) := funext hxr
  obtain rfl : w = fun p => (wr p : EReal) := funext hwr
  obtain rfl : v = fun p => (vr p : EReal) := funext hvr
  rcases S.eq_empty_or_nonempty with rfl | hS
  · -- nothing seen so far: the old sum is empty, and `e^(⊥ - M') · 0 = 0`
    simp
  · -- both maxima are real numbers, and the identity is one of real numbers
    obtain ⟨M, hM⟩ := sup_isReal (fun p => (xr p : EReal)) (fun p => ⟨xr p, rfl⟩) S hS
    obtain ⟨M', hM'⟩ := sup_isReal (fun p => (xr p : EReal)) (fun p => ⟨xr p, rfl⟩) (S ∪ T)
      (hS.mono Finset.subset_union_left)
    simp only [wt, hM, hM', ← EReal.coe_add, ← EReal.coe_sub, Ideal.exp_coe, ← EReal.coe_mul,
      ← coe_finset_sum]
    congr 1
    rw [Finset.sum_union hST, Finset.mul_sum]
    congr 1
    refine Finset.sum_congr rfl (fun p _ => ?_)
    -- `e^(M - M') · e^(x + w - M) = e^(x + w - M')`
    rw [← mul_assoc, ← Real.exp_add]
    congr 2
    ring

/-- The sum of weights after taking in `T`. -/
theorem step_sum (x w : P → EReal) (hx : ∀ p, IsReal (x p)) (hw : ∀ p, IsReal (w p))
    (S T : Finset P) (hST : Disjoint S T) (hT : T.Nonempty) :
    Ideal.exp (S.sup x - (S ∪ T).sup x) * (∑ p ∈ S, wt x w (S.sup x) p)
        + ∑ p ∈ T, wt x w ((S ∪ T).sup x) p
      = ∑ p ∈ S ∪ T, wt x w ((S ∪ T).sup x) p := by
  -- the weighted sum with every value equal to one
  have h := step_acc x w (fun _ => (1 : EReal)) hx hw (fun _ => ⟨1, EReal.coe_one.symm⟩) S T hST hT
  simp only [mul_one] at h
  exact h

/-- Against a real maximum the mask may be added before or after the maximum is taken off. -/
theorem wt_comm (x w : P → EReal) (M : EReal) (p : P) (hx : IsReal (x p)) (hw : IsReal (w p)) (hM : IsReal M) :
    wt x w M p = Ideal.exp (x p - M + w p) := by
  obtain ⟨a, ha⟩ := hx
  obtain ⟨b, hb⟩ := hw
  obtain ⟨m, rfl⟩ := hM
  rw [wt, ha, hb, ← EReal.coe_add, ← EReal.coe_sub, ← EReal.coe_sub, ← EReal.coe_add]
  congr 2
  ring

end Cert.Lib.OnlineSoftmax

end
-- ==== Proof.Fold.lean ====
/-
  The three running quantities of the row loss, tile by tile, and what they are after the last tile.

  Taking in tile v (classes 256·v … 256·v + 255) after the first v tiles:
    the maximum becomes the larger of the old maximum and the tile's maximum;
    the sum of weights is rescaled by e^(old maximum − new maximum) and the tile's weights are added
      (exact for real scores: e^(a − b) · e^(x − a) = e^(x − b); before any tile, e^(⊥ − b) · 0 = 0);
    the label's score gains the tile's scores whose class number is the label.
  After the 125th tile every class has been seen: the maximum and the sum are those of the whole row, and for a
  label that is a class number the label's score is that class's score. For real scores the row's loss is then
  also −((L t − max L) − log ∑ e^(L c − max L)), the arrangement that subtracts the log-sum-exp from the shifted score.
-/
import proofs.«402656_j75977971466920_3_alg».proof.Proof.Spec
import proofs.«402656_j75977971466920_3_alg».proof.Proof.LibOnlineSoftmax

noncomputable section

open scoped BigOperators

namespace Cert.Fold

open Cert.Spec Idealize.ShloMosaic

open Cert.Lib.OnlineSoftmax

theorem seen_zero : seen 0 = ∅ := by
  unfold seen
  apply Finset.filter_false_of_mem
  intro c _
  omega

theorem seen_last : seen 125 = Finset.univ := by
  unfold seen
  apply Finset.filter_true_of_mem
  intro c _
  have := c.isLt
  omega

/-- The classes of tile v. -/
def tile (v : Fin 125) : Finset (Fin 32000) := Finset.univ.image (col v)

theorem col_val (v : Fin 125) (k : Fin 256) : (col v k).val = 256 * v.val + k.val := rfl

theorem col_injective (v : Fin 125) : Function.Injective (col v) := by
  intro a b h
  have h' := congrArg Fin.val h
  rw [col_val, col_val] at h'
  apply Fin.ext
  omega

theorem tile_nonempty (v : Fin 125) : (tile v).Nonempty :=
  ⟨col v ⟨0, by norm_num⟩, Finset.mem_image_of_mem _ (Finset.mem_univ _)⟩

/-- The classes below 256·(v+1) are those below 256·v together with tile v. -/
theorem seen_succ (v : Fin 125) : seen (v.val + 1) = seen v.val ∪ tile v := by
  ext c
  simp only [seen, tile, Finset.mem_union, Finset.mem_filter, Finset.mem_univ, true_and, Finset.mem_image]
  constructor
  · intro h
    by_cases h0 : c.val < 256 * v.val
    · exact Or.inl h0
    · refine Or.inr ⟨⟨c.val - 256 * v.val, by omega⟩, ?_⟩
      apply Fin.ext
      rw [col_val]
      simp only
      omega
  · rintro (h | ⟨k, rfl⟩)
    · omega
    · rw [col_val]
      have := k.isLt
      omega

theorem seen_disjoint_tile (v : Fin 125) : Disjoint (seen v.val) (tile v) := by
  rw [Finset.disjoint_left]
  intro c hc ht
  simp only [seen, Finset.mem_filter, Finset.mem_univ, true_and] at hc
  obtain ⟨k, _, rfl⟩ := Finset.mem_image.mp ht
  rw [col_val] at hc
  omega

theorem mAt_zero (L : Fin 32000 → EReal) : mAt L 0 = ⊥ := by
  unfold mAt
  rw [seen_zero]
  exact Finset.sup_empty

theorem lAt_zero (L : Fin 32000 → EReal) : lAt L 0 = 0 := by
  unfold lAt
  rw [seen_zero]
  exact Finset.sum_empty

theorem gAt_zero (L : Fin 32000 → EReal) (t : BitVec 32) : gAt L t 0 = 0 := by
  unfold gAt
  rw [seen_zero]
  exact Finset.sum_empty

/-- The maximum after tile v. -/
theorem mAt_succ (L : Fin 32000 → EReal) (v : Fin 125) :
    mAt L (v.val + 1) = max (mAt L v.val) ((Finset.univ : Finset (Fin 256)).fold max ⊥ (fun k => L (col v k))) := by
  unfold mAt
  rw [seen_succ, Finset.sup_union, fold_max_bot_eq_sup, tile, Finset.sup_image]
  rfl

/-- The sum of weights after tile v. -/
theorem lAt_succ (L : Fin 32000 → EReal) (hL : AllReal L) (v : Fin 125) :
    lAt L (v.val + 1) = lAt L v.val * Ideal.exp (mAt L v.val - mAt L (v.val + 1))
      + ∑ k : Fin 256, Ideal.exp (L (col v k) - mAt L (v.val + 1)) := by
  -- with the mask identically zero the weight of a class is e^(L c − M)
  have hwt : ∀ (M : EReal) (p : Fin 32000), wt L (fun _ => (0 : EReal)) M p = Ideal.exp (L p - M) := by
    intro M p
    unfold wt
    rw [add_zero]
  have h := step_sum L (fun _ => (0 : EReal)) hL (fun _ => ⟨0, EReal.coe_zero.symm⟩) (seen v.val) (tile v)
    (seen_disjoint_tile v) (tile_nonempty v)
  simp only [hwt] at h
  unfold lAt mAt
  rw [seen_succ v, ← h, tile, Finset.sum_image (fun a _ b _ hab => col_injective v hab),
    mul_comm (Ideal.exp _)]

/-- The label's score after tile v. -/
theorem gAt_succ (L : Fin 32000 → EReal) (t : BitVec 32) (v : Fin 125) :
    gAt L t (v.val + 1) = gAt L t v.val + ∑ k : Fin 256, (if BitVec.ofNat 32 (col v k).val = t then L (col v k) else 0) := by
  unfold gAt
  rw [seen_succ v, Finset.sum_union (seen_disjoint_tile v), tile,
    Finset.sum_image (fun a _ b _ hab => col_injective v hab)]

theorem mAt_last (L : Fin 32000 → EReal) : mAt L 125 = (Finset.univ : Finset (Fin 32000)).sup L := by
  unfold mAt
  rw [seen_last]

theorem lAt_last (L : Fin 32000 → EReal) :
    lAt L 125 = ∑ c : Fin 32000, Ideal.exp (L c - (Finset.univ : Finset (Fin 32000)).sup L) := by
  unfold lAt mAt
  rw [seen_last]

/-- Two class numbers that agree as 32-bit words are the same class. -/
theorem ofNat_class_eq_iff (c k : Fin 32000) : BitVec.ofNat 32 c.val = BitVec.ofNat 32 k.val ↔ c = k := by
  constructor
  · intro h
    have h' := congrArg BitVec.toNat h
    rw [BitVec.toNat_ofNat, BitVec.toNat_ofNat] at h'
    have := c.isLt
    have := k.isLt
    apply Fin.ext
    omega
  · rintro rfl
    rfl

/-- For a label that is class k's number, the label's score over all classes is class k's score. -/
theorem gAt_last_of_class (L : Fin 32000 → EReal) (t : BitVec 32) (k : Fin 32000) (ht : t = BitVec.ofNat 32 k.val) :
    gAt L t 125 = L k := by
  unfold gAt
  rw [seen_last, ht]
  simp only [ofNat_class_eq_iff]
  rw [Finset.sum_ite_eq']
  exact if_pos (Finset.mem_univ k)

theorem rowNll_ignore (L : Fin 32000 → EReal) : rowNll L ignoreWord = 0 := by
  unfold rowNll
  exact if_pos rfl

/-- For real scores and a label that is class k's number: the loss as the negated log-probability. -/
theorem rowNll_of_class (L : Fin 32000 → EReal) (hL : AllReal L) (t : BitVec 32) (k : Fin 32000)
    (ht : t = BitVec.ofNat 32 k.val) (hne : t ≠ ignoreWord) :
    rowNll L t = -((L k - (Finset.univ : Finset (Fin 32000)).sup L)
      - Ideal.log (∑ c : Fin 32000, Ideal.exp (L c - (Finset.univ : Finset (Fin 32000)).sup L))) := by
  unfold rowNll
  rw [if_neg hne, mAt_last, lAt_last, gAt_last_of_class L t k ht]
  -- the maximum of the row is a real number M
  obtain ⟨M, hM⟩ := sup_isReal L hL Finset.univ ⟨k, Finset.mem_univ k⟩
  choose lr hlr using hL
  rw [hM]
  -- the sum of exponentials is a positive real number
  have hs : ∑ c : Fin 32000, Ideal.exp (L c - (M : EReal)) = ((∑ c : Fin 32000, Real.exp (lr c - M) : ℝ) : EReal) := by
    rw [coe_finset_sum]
    refine Finset.sum_congr rfl (fun c _ => ?_)
    rw [hlr c, ← EReal.coe_sub, Ideal.exp_coe]
  have hpos : ¬ (∑ c : Fin 32000, Real.exp (lr c - M)) ≤ 0 :=
    not_le.mpr (Finset.sum_pos (fun c _ => Real.exp_pos _) ⟨k, Finset.mem_univ k⟩)
  rw [hs, Ideal.log_coe, if_neg hpos, hlr k]
  -- (M + log s) − x = −((x − M) − log s) on the reals
  rw [← EReal.coe_add, ← EReal.coe_sub, ← EReal.coe_sub, ← EReal.coe_sub, ← EReal.coe_neg]
  exact EReal.coe_eq_coe_iff.mpr (by ring)

end Cert.Fold

end
-- ==== Proof.LibTakeAlong.lean ====
/-
  A take along the class axis, one column, read at an index.

  `jnp.take_along_axis(x, i, axis = 1)` over an [N × C] array and an [N × 1] column of class numbers is a
  `stablehlo.gather` whose start indices are the [N × 1 × 1] array of those numbers: axis 0 of the operand is a
  BATCHING axis, paired with axis 0 of the start indices (row p of the result reads row p of the operand), axis 1 of
  the operand is collapsed and start-indexed, there is no offset axis, and the index vector lies on axis 2. Entry
  (p, u) of the result is the operand's row p at the column that row p's start index names, read signed and clamped
  into 0 … C − 1.
-/
import Idealize.ShloMosaic.Lib.ValueIdx
import Idealize.ShloMosaic.PureOps.ShapeOps
import Idealize.ShloMosaic.PureOps.Dims

noncomputable section

namespace Cert.Lib

open Idealize.ShloMosaic Idealize.ShloMosaic.ValueIdx

/-- Equal lists read at equal positions give equal entries. -/
theorem getElem_congr_both {β : Type} {l l' : List β} {k k' : Nat} (hl : l = l') (hk : k = k') (h : k < l.length)
    (h' : k' < l'.length) : l[k] = l'[k'] := by
  subst hl; subst hk; rfl

/-- With no offset axis, both axes of an [N × 1] result are batch axes, in order. -/
theorem along_batchDims {N C : Nat} (d : GatherDims ⟨2, ![N, C]⟩ ⟨3, ![N, 1, 1]⟩ ⟨2, ![N, 1]⟩)
    (hoff : d.offsetDims = []) : d.batchDims = [0, 1] := by
  show Shape.kept _ d.offsetDims = _
  rw [hoff]
  rfl

/-- With the index vector on axis 2, the start indices' other axes are 0 and 1, in order. -/
theorem along_siKept {N C : Nat} (d : GatherDims ⟨2, ![N, C]⟩ ⟨3, ![N, 1, 1]⟩ ⟨2, ![N, 1]⟩)
    (hivd : d.indexVectorDim = 2) : d.siKept = [0, 1] := by
  show (List.finRange 3).filter (fun b => decide (b.val ≠ d.indexVectorDim)) = _
  rw [hivd]
  rfl

/-- The coordinate that result index (p, u) gives the start indices' axis 0 is p: axis 0 is the first of the start
    indices' axes other than the index vector's, and the result's first batch axis is its axis 0. -/
theorem along_siCoord0 {N C : Nat} (d : GatherDims ⟨2, ![N, C]⟩ ⟨3, ![N, 1, 1]⟩ ⟨2, ![N, 1]⟩)
    (hoff : d.offsetDims = []) (hivd : d.indexVectorDim = 2) (p : Fin N) (u : Fin 1)
    (hb : (0 : Fin 3) ∈ d.siKept) : (d.siCoord (ix2 p u) 0 hb).val = p.val := by
  unfold GatherDims.siCoord
  simp only [Fin.val_cast]
  have hk : d.siKept.idxOf (0 : Fin 3) = 0 := by rw [along_siKept d hivd]; rfl
  have e : ∀ h, d.batchDims[d.siKept.idxOf (0 : Fin 3)]'h = (0 : Fin 2) := fun h =>
    getElem_congr_both (l' := [0, 1]) (k' := 0) (along_batchDims d hoff) hk h (by simp)
  rw [e]

/-- A TAKE ALONG THE SECOND AXIS, ONE COLUMN. A gather from an [N × C] array at an [N × 1 × 1] array of start indices
    whose axis 0 is the batching axis paired with the operand's axis 0, the operand's axis 1 collapsed and
    start-indexed, no offset axis, the index vector on axis 2, slices of one element: entry (p, u) is the operand's
    row p at column (row p's start index read SIGNED and CLAMPED into 0 … C − 1). -/
theorem gather_along_col {α : Type} {N C w : Nat} (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (p : Fin N) (u : Fin 1) (hC : 0 < C) :
    Host.gather d x idx (ix2 p u)
      = x (ix2 p ⟨min (idx (ix3 p (0 : Fin 1) (0 : Fin 1))).toInt.toNat (C - 1), by omega⟩) := by
  unfold Host.gather
  congr 1
  funext a
  apply Fin.ext
  match a with
  | ⟨0, _⟩ =>
    -- the batching axis: no start, no offset coordinate; the batching coordinate is the result's row
    have hb0 : (0 : Fin 2) ∈ d.operandBatchingDims := by rw [hob]; exact List.mem_singleton.mpr rfl
    have hk0 : (0 : Fin 2) ∉ d.sKept := by rw [GatherDims.mem_sKept]; exact fun h => h.2 hb0
    show (d.operandIdx (ix2 p u) idx 0).val = p.val
    simp only [GatherDims.operandIdx, GatherDims.start_batching _ _ _ _ hb0, GatherDims.offCoord_eq_zero _ _ _ hk0,
      Nat.add_zero, Nat.zero_add]
    unfold GatherDims.batchCoord
    rw [dif_pos hb0]
    -- the start indices' batching axis paired with the operand's axis 0 is their axis 0
    have hsbAll : ∀ y ∈ d.startIndicesBatchingDims, y = 0 := by
      intro y hy; rw [hsb] at hy; exact List.mem_singleton.1 hy
    have key : ∀ (b : Fin 3) (hb : b ∈ d.siKept), b = 0 → (d.siCoord (ix2 p u) b hb).val = p.val := by
      rintro b hb rfl
      exact along_siCoord0 d hoff hivd p u hb
    exact key _ _ (hsbAll _ (List.getElem_mem _))
  | ⟨1, _⟩ =>
    -- the class axis: the clamped start index; no batching and no offset coordinate
    have hb1 : (1 : Fin 2) ∉ d.operandBatchingDims := by rw [hob]; simp
    have hk1 : (1 : Fin 2) ∉ d.sKept := by
      rw [GatherDims.mem_sKept, hcoll]; exact fun h => h.1 (List.mem_singleton.mpr rfl)
    have hm : (1 : Fin 2) ∈ d.startIndexMap := by rw [hsim]; exact List.mem_singleton.mpr rfl
    have hsl : d.sliceSizes 1 = 1 := d.slice_collapsed 1 (by rw [hcoll]; exact List.mem_singleton.mpr rfl)
    -- the start index of result index (p, u) is read at (p, 0, 0)
    have hsi : ∀ c, d.siIdx (ix2 p u) c = ix3 p (0 : Fin 1) (0 : Fin 1) := by
      intro c
      funext b
      match b with
      | ⟨0, _⟩ =>
        unfold GatherDims.siIdx
        rw [dif_neg (by rw [hivd]; simp)]
        apply Fin.ext
        exact along_siCoord0 d hoff hivd p u _
      | ⟨1, _⟩ => exact Subsingleton.elim (α := Fin 1) _ _
      | ⟨2, _⟩ => exact Subsingleton.elim (α := Fin 1) _ _
    show (d.operandIdx (ix2 p u) idx 1).val = _
    simp only [GatherDims.operandIdx, GatherDims.batchCoord_eq_zero _ _ _ hb1, GatherDims.offCoord_eq_zero _ _ _ hk1,
      Nat.add_zero, GatherDims.start, dif_pos hm]
    rw [hsi, hsl]
    rfl

end Cert.Lib

end
-- ==== Proof.LibWrapTake.lean ====
/-
  Two facts about words, for reading an index range out of a printed predicate and into a printed range mask.

  numpy's wrap of a negative index: for a table of N rows an index x with −N ≤ x < N is sent to x + N when x < 0 and left
  alone otherwise, and the result lies in [0, N − 1]. On 32-bit words read as signed integers, for N up to 2³⁰, the sum
  does not wrap around, so the word computed by "select (x < 0) (x + N) x" has that signed value.
  An and-reduction of one-bit words that are all 1, from an initial value 1, is 1 at every result index.
-/
import Idealize.ShloMosaic.Lib.Affine
import Idealize.ShloMosaic.Lib.ValueIdx
import Idealize.ShloMosaic.Lib.ReduceAll
import Idealize.ShloMosaic.Lib.StableHlo.Predicate

namespace Cert.LibWrapTake

open Idealize.ShloMosaic

/-- The wrapped index lies in the table: from −N ≤ x < N (signed), the word "x + N if x < 0, else x" is in [0, N − 1]. -/
theorem wrap_range (N : Nat) (hN : N ≤ 2 ^ 30) (x : BitVec 32) (hlo : -(N : Int) ≤ x.toInt) (hhi : x.toInt < N) :
    0 ≤ (Scalar.select (IntOp.cmpi .slt x 0#32) (IntOp.addi x (BitVec.ofNat 32 N)) x).toInt
    ∧ (Scalar.select (IntOp.cmpi .slt x 0#32) (IntOp.addi x (BitVec.ofNat 32 N)) x).toInt ≤ (N : Int) - 1 := by
  have h0 : (0#32 : BitVec 32).toInt = 0 := by decide
  have hNi : (BitVec.ofNat 32 N).toInt = N := StableHlo.Predicate.toInt_ofNat_small N (by omega)
  have hN' : (N : Int) ≤ 2 ^ 30 := by exact_mod_cast hN
  by_cases hx : x.toInt < 0
  · have hc : IntOp.cmpi .slt x 0#32 = 1#1 := IntOp.cmpi_slt.2 (by rw [h0]; exact hx)
    rw [hc, ValueIdx.select_one]
    show 0 ≤ (x + BitVec.ofNat 32 N).toInt ∧ (x + BitVec.ofNat 32 N).toInt ≤ (N : Int) - 1
    rw [BitVec.toInt_add, hNi, Int.bmod_eq_of_le (by omega) (by omega)]
    omega
  · have hc : IntOp.cmpi .slt x 0#32 = 0#1 :=
      ValueIdx.eq_zero_of_ne_one (fun h => hx (by have := IntOp.cmpi_slt.1 h; rwa [h0] at this))
    rw [hc, ValueIdx.select_zero]
    omega

/-- A left fold by `and` over one-bit words that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

/-- An and-reduction of an array of 1s from the initial value 1 is 1 everywhere. -/
theorem reduce_andi_one_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun i _ => hx i)

end Cert.LibWrapTake
-- ==== Proof.LibKeepdims.lean ====
/-
  Layout and reduction lemmas for rank-2 arrays read by coordinates, in the style of the library's
  `Lib/ValueLayout.lean`: the keepdims COLUMN forms (a vector cast to one column, a column broadcast
  along the rows), and a one-axis reduction of an `[a, b]` array — a kernel's `vector.multi_reduction`
  by `add` or `maximumf` over either axis, the host's one-operand `stablehlo.reduce` by `maximum`
  over the second axis — as a `Fin`-indexed sum or fold of the entries `(i, k)` / `(k, j)`.
  Program-independent: only shapes `[a]`, `[a, 1]`, `[a, b]` with the extents as variables.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float `multi_reduction <add>` of an `[a, b]` array over its second axis, at row `i`: the row's sum. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

/-- A float `multi_reduction <add>` of an `[a, b]` array over its first axis, at column `j`: the column's sum. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

/-- A float `multi_reduction <maximumf>` of an `[a, b]` array over its second axis, at row `i`: the fold of
    `max` from the accumulator's value over the row. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

/-- The host's one-operand `stablehlo.reduce` by `maximum` of an `[a, b]` array over its second axis, at row
    `i`, read at the extended reals: the fold of `max` from the initial value over the row. -/
theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

/-! ### The same at `f32` with the accumulator's word written out

At `f32` the neutral word of `add` is `0x00000000` and that of `maximumf` is `0xFF800000` (`-∞`): with the
accumulator written as that word, the evidence that it is the kind's neutral word is the word's equation with itself. -/

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  multiReduction_add_cols src _ h hφ hacc j

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

/-- The one entry of a `[1, 1]` array, extracted at `[0, 0]`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.Keepdims

end
-- ==== Proof.RefValue.lean ====
/-
  The reference's result is the mean of the rows' losses.

  The reference scores every row against every class (one product of the inputs with the transposed weights),
  takes the log-softmax of each row — the shifted score L c − max L minus log ∑ e^(L c − max L) —, replaces an
  ignored label by class 0, takes the log-probability at the label along the class axis, negates it, puts 0 where
  the label was ignored, sums over the rows and divides by the number of rows not ignored (at least 1). For real
  inputs and weights, and labels that are ignored or class numbers, each row's term is the row loss of the
  specification, so the result is the specification's total over that divisor.
-/
import proofs.«402656_j75977971466920_3_alg».proof.Proof.RefRead
import proofs.«402656_j75977971466920_3_alg».proof.Proof.Spec
import proofs.«402656_j75977971466920_3_alg».proof.Proof.Fold
import proofs.«402656_j75977971466920_3_alg».proof.Proof.LibTakeAlong
import proofs.«402656_j75977971466920_3_alg».proof.Proof.LibWrapTake
import proofs.«402656_j75977971466920_3_alg».proof.Proof.LibKeepdims

noncomputable section

open scoped BigOperators

namespace Cert.RefValue

open Cert.ReferenceIdeal Cert.ReferenceIdeal.Gen Cert.ReferenceIdeal.ReadP Idealize.ShloMosaic Idealize.ShloMosaic.ValueIdx

/-- The word 0xFF800000 is −∞. -/
theorem ofBits_ninf : Ideal.ofBits .f32 0xFF800000#32 = ⊥ := by simp [Ideal.ofBits, Ideal.ieee]

/-- The score of class c on row R is the entry (R, c) of the product. -/
theorem scores (X : (⟨S8192x4096, .f32⟩ : BufTy).Contents (Elt Ideal)) (W : (⟨S32000x4096, .f32⟩ : BufTy).Contents (Elt Ideal))
    (R : Fin 8192) (c : Fin 32000) :
    val_main_v0 (F := Ideal) X W (ix2 R c) = Cert.Spec.logit X W R c := by
  rw [val_main_v0_apply]
  unfold Cert.Spec.logit
  refine Finset.sum_congr rfl fun h _ => ?_
  have el : lidx_main_v0 (ix2 R c) h = ix2 R h :=
    funext fun a => Fin.ext (by match a with | ⟨0, _⟩ => rfl | ⟨1, _⟩ => rfl)
  have er : ridx_main_v0 (ix2 R c) h = ix2 c h :=
    funext fun a => Fin.ext (by match a with | ⟨0, _⟩ => rfl | ⟨1, _⟩ => rfl)
  rw [el, er]

/-- The row's maximum (the larger of −∞ and the fold of max from −∞ over the row) is the supremum of the row's scores. -/
theorem rowmax (X : (⟨S8192x4096, .f32⟩ : BufTy).Contents (Elt Ideal)) (W : (⟨S32000x4096, .f32⟩ : BufTy).Contents (Elt Ideal))
    (R : Fin 8192) :
    val_main_call0_v2 (F := Ideal) X W (ix1 R) = (Finset.univ : Finset (Fin 32000)).sup (Cert.Spec.logit X W R) := by
  rw [val_main_call0_v2_apply, val_main_call0_v1_apply, val_main_call0_cst_0_apply]
  have h0 : val_main_call0_v0 (F := Ideal) X W (ix1 R)
      = (Finset.univ : Finset (Fin 32000)).fold max ⊥ (Cert.Spec.logit X W R) := by
    unfold val_main_call0_v0
    refine (Cert.Keepdims.hostReduce_max_rows (φ := .f32) _ _ _ (by decide) _ R).trans ?_
    rw [val_main_call0_cst_apply, Ideal.ofBits_def, ofBits_ninf]
    exact congrArg (fun f => (Finset.univ : Finset (Fin 32000)).fold max ⊥ f) (funext fun k => scores X W R k)
  rw [h0, Ideal.ofBits_def, ofBits_ninf, Ideal.maximumf_def, Cert.Lib.OnlineSoftmax.fold_max_bot_eq_sup, max_bot_left]

/-- The shifted score: entry (R, c) of the scores minus the row's maximum. -/
theorem shifted (X : (⟨S8192x4096, .f32⟩ : BufTy).Contents (Elt Ideal)) (W : (⟨S32000x4096, .f32⟩ : BufTy).Contents (Elt Ideal))
    (R : Fin 8192) (c : Fin 32000) :
    val_main_call0_v5 (F := Ideal) X W (ix2 R c)
      = Cert.Spec.logit X W R c - (Finset.univ : Finset (Fin 32000)).sup (Cert.Spec.logit X W R) := by
  have e3 : idx_main_call0_v3 (idx_main_call0_v4 (ix2 R c)) = ix1 R :=
    funext fun a => Fin.ext (by match a with | ⟨0, _⟩ => rfl)
  rw [val_main_call0_v5_apply, val_main_call0_v4_apply, val_main_call0_v3_apply, e3, rowmax, scores, Ideal.subf_def]

/-- The log of the row's sum of weights, broadcast along the row. -/
theorem logsum (X : (⟨S8192x4096, .f32⟩ : BufTy).Contents (Elt Ideal)) (W : (⟨S32000x4096, .f32⟩ : BufTy).Contents (Elt Ideal))
    (R : Fin 8192) (c : Fin 32000) :
    val_main_call0_v10 (F := Ideal) X W (ix2 R c)
      = Ideal.log (∑ c' : Fin 32000, Ideal.exp (Cert.Spec.logit X W R c'
          - (Finset.univ : Finset (Fin 32000)).sup (Cert.Spec.logit X W R))) := by
  have e8 : idx_main_call0_v8 (idx_main_call0_v10 (ix2 R c)) = ix1 R :=
    funext fun a => Fin.ext (by match a with | ⟨0, _⟩ => rfl)
  rw [val_main_call0_v10_apply, val_main_call0_v9_apply, val_main_call0_v8_apply, e8, val_main_call0_v7_apply,
    val_main_call0_cst_1_apply, Ideal.ofBits_def, Ideal.ofBits_zero_f32, zero_add, Ideal.hostUnary_log_def]
  refine congrArg Ideal.log (Finset.sum_congr rfl fun k _ => ?_)
  have e7 : idx_main_call0_v7 (ix1 R) k = ix2 R k :=
    funext fun a => Fin.ext (by match a with | ⟨0, _⟩ => rfl | ⟨1, _⟩ => rfl)
  rw [e7, val_main_call0_v6_apply, shifted, Ideal.hostUnary_exp_def]

/-- The log-softmax entry (R, c): the shifted score minus the log of the row's sum of weights. -/
theorem logsoftmax (X : (⟨S8192x4096, .f32⟩ : BufTy).Contents (Elt Ideal)) (W : (⟨S32000x4096, .f32⟩ : BufTy).Contents (Elt Ideal))
    (R : Fin 8192) (c : Fin 32000) :
    val_main_v1 (F := Ideal) X W (ix2 R c)
      = (Cert.Spec.logit X W R c - (Finset.univ : Finset (Fin 32000)).sup (Cert.Spec.logit X W R))
        - Ideal.log (∑ c' : Fin 32000, Ideal.exp (Cert.Spec.logit X W R c'
          - (Finset.univ : Finset (Fin 32000)).sup (Cert.Spec.logit X W R))) := by
  rw [val_main_v1_apply, shifted, logsum, Ideal.subf_def]

/-- The safe label of a label word: the word itself, or class 0 for the ignored label. -/
def safe (t : BitVec 32) : BitVec 32 := Scalar.select (IntOp.cmpi .ne t Cert.Spec.ignoreWord) t 0#32

theorem safe_ignore : safe Cert.Spec.ignoreWord = 0#32 := by
  unfold safe
  rw [eq_zero_of_ne_one (fun h => (IntOp.cmpi_ne.1 h) rfl), select_zero]

theorem safe_of_ne (t : BitVec 32) (h : t ≠ Cert.Spec.ignoreWord) : safe t = t := by
  unfold safe
  rw [IntOp.cmpi_ne.2 h, select_one]

/-- A class number is not the ignored label. -/
theorem ne_ignore_of_class (t : BitVec 32) (h : 0 ≤ t.toInt ∧ t.toInt < 32000) : t ≠ Cert.Spec.ignoreWord := by
  rintro rfl
  revert h
  decide

/-- The safe label of an admissible label is a class number. -/
theorem safe_range (t : BitVec 32) (ht : t = Cert.Spec.ignoreWord ∨ (0 ≤ t.toInt ∧ t.toInt < 32000)) :
    0 ≤ (safe t).toInt ∧ (safe t).toInt < 32000 := by
  rcases ht with rfl | h
  · rw [safe_ignore]; decide
  · rw [safe_of_ne t (ne_ignore_of_class t h)]; exact h

/-- The wrap of a nonnegative index leaves it alone. -/
theorem wrap_id (s : BitVec 32) (hs : 0 ≤ s.toInt) :
    Scalar.select (IntOp.cmpi .slt s 0#32) (IntOp.addi s 32000#32) s = s := by
  have h0 : (0#32 : BitVec 32).toInt = 0 := by decide
  have hc : IntOp.cmpi .slt s 0#32 = 0#1 :=
    eq_zero_of_ne_one (fun h => by have := IntOp.cmpi_slt.1 h; omega)
  rw [hc, select_zero]

/-- Row R's safe label, as the reference computes it. -/
theorem safe_label (T : (⟨S8192, .i32⟩ : BufTy).Contents (Elt Ideal)) (R : Fin 8192) :
    val_main_v4 (F := Ideal) T (ix1 R) = safe (T (ix1 R)) := by
  rw [val_main_v4_apply, val_main_v3_apply, val_main_v2_apply, val_main_c_apply, val_main_call1_v1_apply,
    val_main_call1_v0_apply, val_main_c_0_apply]
  rfl

/-- Row R's start index for the take: the safe label, which the wrap leaves alone. -/
theorem start_index (T : (⟨S8192, .i32⟩ : BufTy).Contents (Elt Ideal)) (hT : Cert.Spec.LabelsOk T) (R : Fin 8192) :
    val_main_call2_v5 (F := Ideal) T (ix3 R (0 : Fin 1) (0 : Fin 1)) = safe (T (ix1 R)) := by
  have e5 : idx_main_call2_v5 (ix3 R (0 : Fin 1) (0 : Fin 1)) = ix2 R (0 : Fin 1) :=
    funext fun a => Fin.ext (by
      match a with
      | ⟨0, _⟩ => show ((R.val * 1 + 0) * 1 + 0) / 1 = R.val; omega
      | ⟨1, _⟩ => rfl)
  have e4 : idx_main_v5 (ix2 R (0 : Fin 1)) = ix1 R :=
    funext fun a => Fin.ext (by match a with | ⟨0, _⟩ => rfl)
  rw [val_main_call2_v5_apply, e5, val_main_call2_v4_apply, val_main_call2_v1_apply, val_main_call2_v3_apply,
    val_main_v5_apply, e4, val_main_call2_v0_apply, val_main_call2_c_apply, val_main_call2_v2_apply,
    val_main_call2_c_0_apply, safe_label]
  exact wrap_id _ (safe_range _ (hT R)).1

/-- Every start index lies in the table, so the range test holds everywhere. -/
theorem in_range (T : (⟨S8192, .i32⟩ : BufTy).Contents (Elt Ideal)) (hT : Cert.Spec.LabelsOk T) (i : S8192x1x1.Idx) :
    val_main_call2_v11 (F := Ideal) T i = 1#1 := by
  obtain ⟨R, b, c, rfl⟩ : ∃ R b c, i = ix3 R b c := ⟨_, _, _, eq_ix3 i⟩
  obtain rfl : b = 0 := Subsingleton.elim _ _
  obtain rfl : c = 0 := Subsingleton.elim _ _
  have h0 : (0#32 : BitVec 32).toInt = 0 := by decide
  have h1 : (31999#32 : BitVec 32).toInt = 31999 := by decide
  have hs := safe_range _ (hT R)
  rw [val_main_call2_v11_apply, val_main_call2_v7_apply, val_main_call2_v10_apply, start_index T hT R,
    val_main_call2_v6_apply, val_main_call2_c_2_apply, val_main_call2_v9_apply, val_main_call2_v8_apply,
    val_main_call2_c_1_apply]
  exact IntOp.andi_eq_one.2 ⟨IntOp.cmpi_sge.2 (by omega), IntOp.cmpi_sle.2 (by omega)⟩

/-- The range mask is 1 on every row. -/
theorem mask_one (T : (⟨S8192, .i32⟩ : BufTy).Contents (Elt Ideal)) (hT : Cert.Spec.LabelsOk T) (j : S8192x1.Idx) :
    val_main_call2_v12 (F := Ideal) T j = 1#1 := by
  unfold val_main_call2_v12
  exact Cert.LibWrapTake.reduce_andi_one_of_all _ _ _ _ (fun k => val_main_call2_c_3_apply k) (in_range T hT) j

/-- The taken entry of row R is the log-softmax entry at the safe label's column. -/
theorem taken (X : (⟨S8192x4096, .f32⟩ : BufTy).Contents (Elt Ideal)) (W : (⟨S32000x4096, .f32⟩ : BufTy).Contents (Elt Ideal))
    (T : (⟨S8192, .i32⟩ : BufTy).Contents (Elt Ideal)) (hT : Cert.Spec.LabelsOk T) (R : Fin 8192) (k : Fin 32000)
    (hk : (k.val : Int) = (safe (T (ix1 R))).toInt) :
    val_main_v6 (F := Ideal) X W T (ix2 R (0 : Fin 1)) = val_main_v1 (F := Ideal) X W (ix2 R k) := by
  rw [val_main_v6_apply, mask_one T hT, select_one]
  unfold val_main_call2_v13
  refine (Cert.Lib.gather_along_col gather_S8192x32000_S8192x1x1_S8192x1_n_1_0_0_1_2_11 rfl rfl rfl rfl rfl rfl
    _ _ R (0 : Fin 1) (by decide)).trans ?_
  refine congrArg (fun j => val_main_v1 (F := Ideal) X W (ix2 R j)) (Fin.ext ?_)
  show min (val_main_call2_v5 (F := Ideal) T (ix3 R (0 : Fin 1) (0 : Fin 1))).toInt.toNat (32000 - 1) = k.val
  rw [start_index T hT R]
  have hs := safe_range _ (hT R)
  omega

/-- A class label is the word of its class number. -/
theorem word_of_class (t : BitVec 32) (h : 0 ≤ t.toInt ∧ t.toInt < 32000) : t = BitVec.ofNat 32 t.toInt.toNat := by
  apply BitVec.eq_of_toInt_eq
  rw [StableHlo.Predicate.toInt_ofNat_small _ (by omega)]
  omega

/-- Row R's term of the reference's sum is the row's loss. -/
theorem row_term (X : (⟨S8192x4096, .f32⟩ : BufTy).Contents (Elt Ideal)) (W : (⟨S32000x4096, .f32⟩ : BufTy).Contents (Elt Ideal))
    (T : (⟨S8192, .i32⟩ : BufTy).Contents (Elt Ideal))
    (hX : Cert.Spec.AllReal X) (hW : Cert.Spec.AllReal W) (hT : Cert.Spec.LabelsOk T) (R : Fin 8192) :
    val_main_v9 (F := Ideal) X W T (ix1 R) = Cert.Spec.nll X W T R := by
  have e7 : idx_main_v7 (ix1 R) = ix2 R (0 : Fin 1) :=
    funext fun a => Fin.ext (by
      match a with
      | ⟨0, _⟩ => show R.val / 1 = R.val; omega
      | ⟨1, _⟩ => rfl)
  rw [val_main_v9_apply, val_main_v3_apply, val_main_v2_apply, val_main_c_apply, val_main_call3_v1_apply,
    val_main_call3_v0_apply, val_main_cst_apply, Ideal.ofBits_def, Ideal.ofBits_zero_f32]
  unfold Cert.Spec.nll
  rcases hT R with h | h
  · have hc : IntOp.cmpi .ne Cert.Spec.ignoreWord (4294967196#32 : BitVec 32) = 0#1 :=
      eq_zero_of_ne_one (fun h' => (IntOp.cmpi_ne.1 h') rfl)
    rw [h, hc, select_zero, Cert.Fold.rowNll_ignore]
  · have hne := ne_ignore_of_class _ h
    have hc : IntOp.cmpi .ne (T (ix1 R)) (4294967196#32 : BitVec 32) = 1#1 := IntOp.cmpi_ne.2 hne
    rw [hc, select_one, val_main_v8_apply, val_main_v7_apply, e7,
      taken X W T hT R ⟨(T (ix1 R)).toInt.toNat, by omega⟩
        (by rw [safe_of_ne _ hne]; show (((T (ix1 R)).toInt.toNat : Nat) : Int) = _; omega),
      logsoftmax, Ideal.hostNegf_def, Ideal.negf_def]
    exact (Cert.Fold.rowNll_of_class _ (Cert.Spec.logit_real X W hX hW R) _ ⟨(T (ix1 R)).toInt.toNat, by omega⟩
      (word_of_class _ h) hne).symm

/-- A sum over the rows' index set is the sum over the row numbers. -/
theorem sum_rows (f : S8192.Idx → EReal) : ∑ j : S8192.Idx, f j = ∑ R : Fin 8192, f (ix1 R) :=
  Fintype.sum_equiv ⟨fun j => j 0, fun R => ix1 R, fun j => (eq_ix1 j).symm, fun _ => rfl⟩ _ _
    (fun j => congrArg f (eq_ix1 j))

/-- The reference's result, at every (the one) index: the total of the rows' losses over the reference's divisor. -/
theorem ref_eq (X : (⟨S8192x4096, .f32⟩ : BufTy).Contents (Elt Ideal)) (W : (⟨S32000x4096, .f32⟩ : BufTy).Contents (Elt Ideal))
    (T : (⟨S8192, .i32⟩ : BufTy).Contents (Elt Ideal))
    (hX : Cert.Spec.AllReal X) (hW : Cert.Spec.AllReal W) (hT : Cert.Spec.LabelsOk T) :
    val_main_v15 (F := Ideal) X W T = fun i => Ideal.div (Cert.Spec.total X W T) (val_main_v13 (F := Ideal) T i) := by
  funext i
  rw [val_main_v15_apply, Ideal.hostDivf_def, val_main_v14_apply, val_main_cst_3_apply, Ideal.ofBits_def,
    Ideal.ofBits_zero_f32, zero_add, sum_rows]
  unfold Cert.Spec.total
  exact congrArg (fun s => Ideal.div s (val_main_v13 (F := Ideal) T i))
    (Finset.sum_congr rfl fun R _ => row_term X W T hX hW hT R)

end Cert.RefValue

end
-- ==== Proof.Pre.lean ====
/-
  What the precondition says of the three arguments.

  The precondition is the conjunction of three tests, each an "all" over an array: |x| < +∞ at every entry of the
  inputs, the same for the weights, and for every label (0 ≤ t and t < 32000) or t = −100, read as signed 32-bit
  integers. A float entry whose absolute value is below +∞ is a real number.
-/
import proofs.«402656_j75977971466920_3_alg».proof.Pre_finite_inputs
import proofs.«402656_j75977971466920_3_alg».proof.Proof.Spec
import Idealize.ShloMosaic.Lib.ReduceAll
import Idealize.ShloMosaic.Lib.StableHlo.Predicate

noncomputable section

namespace Cert.PreDecode

open Idealize.ShloMosaic Idealize.ShloMosaic.ValueIdx

/-- The scalar shape has one index. -/
local instance : Subsingleton Cert.Pre_finite_inputs.S_.Idx := ⟨fun a b => funext fun d => d.elim0⟩

/-- The pattern 0x7F800000 denotes +∞. -/
private theorem inf_bits : Ideal.ofBits .f32 0x7F800000#32 = ⊤ := by simp [Ideal.ofBits, Ideal.ieee]

/-- An extended real whose absolute value is below +∞ is a real number. -/
private theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [inf_bits] at h'
  unfold Ideal.cmp at h'
  have hlt : max (x : EReal) (-(x : EReal)) < ⊤ := by
    by_contra hn
    simp [hn] at h'
  induction x using EReal.rec with
  | bot => simp at hlt
  | coe r => exact ⟨r, rfl⟩
  | top => simp at hlt

/-- From the precondition at the ideal instance: real inputs, real weights, labels ignored or class numbers. -/
theorem decode [Cert.Pre_finite_inputs.Facts]
    (X : FVec Ideal Cert.Pre_finite_inputs.S8192x4096 .f32) (W : FVec Ideal Cert.Pre_finite_inputs.S32000x4096 .f32)
    (T : IVec Cert.Pre_finite_inputs.S8192 32)
    (h : Cert.Pre_finite_inputs.fn (F := Ideal) X W T = fun _ => 1#1) :
    Cert.Spec.AllReal X ∧ Cert.Spec.AllReal W ∧ Cert.Spec.LabelsOk T := by
  have h0 := congrFun h ValueIdx.ix0
  dsimp only [Cert.Pre_finite_inputs.fn, Cert.Pre_finite_inputs.fn_part1] at h0
  obtain ⟨hXW, hL⟩ := IntOp.andi_eq_one.1 h0
  obtain ⟨hX, hW⟩ := IntOp.andi_eq_one.1 hXW
  have hX' := Host.reduce_andi_all _ _ _ _ _ hX
  have hW' := Host.reduce_andi_all _ _ _ _ _ hW
  have hL' := Host.reduce_andi_all _ _ _ _ _ hL
  refine ⟨fun i => real_of_abs_lt_inf (X i) (hX' i), fun i => real_of_abs_lt_inf (W i) (hW' i), fun R => ?_⟩
  rcases IntOp.ori_eq_one.1 (hL' (ix1 R)) with hr | he
  · obtain ⟨hge, hlt⟩ := IntOp.andi_eq_one.1 hr
    have hge' : (0#32 : BitVec 32).toInt ≤ (T (ix1 R)).toInt := IntOp.cmpi_sge.1 hge
    have hlt' : (T (ix1 R)).toInt < (32000#32 : BitVec 32).toInt := IntOp.cmpi_slt.1 hlt
    have e0 : (0#32 : BitVec 32).toInt = 0 := by decide
    have e1 : (32000#32 : BitVec 32).toInt = 32000 := by decide
    rw [e0] at hge'
    rw [e1] at hlt'
    exact Or.inr ⟨hge', hlt'⟩
  · exact Or.inl (IntOp.cmpi_eq.1 he)

end Cert.PreDecode

end
-- ==== Proof.KPieces.lean ====
/-
  What each of the kernel body's three cases leaves in the three carried scratch buffers and in the output block,
  as the body's pure payloads of the values the case reads.

  The body keeps, per row of its block of 2048 rows, a running maximum (first scratch), a running sum of weights
  (second scratch) and the label's score so far (third scratch). At a row block's first tile (case A) it first
  resets them to −∞, 0 and 0 and then updates them, so the update reads the reset values back; at a later tile
  (cases B and C) the update reads what the tile before left (xs0, xs1, xs2). At the last tile (case C) it also
  stores the output block, computed from the three scratch buffers as just updated.
-/
import proofs.«402656_j75977971466920_3_alg».proof.Proof.Gen.KernelIdeal.Frame
import Idealize.ShloMosaic.Lib.Pipeline.Value
import Idealize.ShloMosaic.Lib.Tactic

set_option maxRecDepth 16384

noncomputable section

namespace Cert.KernelIdeal.KPieces

open Cert.KernelIdeal Cert.KernelIdeal.Gen Idealize.ShloMosaic Idealize.ShloMosaic.TcCoe Idealize.ShloMosaic.Tactic
open Idealize.SL Idealize.SL.Sem

variable {F : FTy → Type} [FloatOps F]

variable (c : Dev nD) (i : grid0.Coords) (arg2 : Memref sig .tc .vmem S2048x4096 .bf16) (harg2 : arg2.IsWhole) (arg3 : Memref sig .tc .vmem S256x4096 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole)
variable (x0 : Vec F S2048x4096 .bf16) (x1 : Vec F S256x4096 .f32) (x2 : Vec F S2048x1 .i32)
variable (xs0 xs1 xs2 : Vec F S2048x1 .f32)

/-- The offset of every rectangle the body loads or stores through, however its zeros are spelt. -/
private theorem offZero : (![0, 0] : Fin 2 → Nat) = fun _ => 0 := funext fun a => by fin_cases a <;> rfl

/-- The updated maximum over a maximum `s0` found in the scratch. -/
abbrev newMax (s0 : Vec F S2048x1 .f32) : FVec F S2048x1 .f32 := k0_pay2 (k0_pay10 x0 x1 s0)
/-- The updated sum of weights over a maximum `s0` and a sum `s1` found in the scratch. -/
abbrev newSum (s0 s1 : Vec F S2048x1 .f32) : FVec F S2048x1 .f32 :=
  k0_pay1 (k0_pay11 x0 x1 s0 s0) (k0_pay12 x0 x1 s0) s1
/-- The updated label score over a score `s2` found in the scratch. -/
abbrev newPick (s2 : Vec F S2048x1 .f32) : FVec F S2048x1 .f32 := k0_pay9 i x0 x1 x2 s2

theorem soutA0 (hc0 : cond0_0 i) (hc1 : ¬cond0_1 i) :
    sout0_A_0 c i arg2 harg2 arg3 harg3 arg4 harg4 arg5 harg5 arg6 harg6 arg7 harg7 arg8 harg8 hc0 hc1 x0 x1 x2 = newMax x0 x1 (k0_pay4 (F := F)) := by
  -- two stores, the reset then the update; the update covers, and reads the reset value back
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x1) offZero]
  simp only [View.readCov_unit_zero (S := S2048x1) _ offZero, View.readAt_eq_ld, harg2.read_unread, harg3.read_unread,
    harg4.read_unread, harg5.read_unread, harg6.read_unread, harg7.read_unread, harg8.read_unread,
    View.ld_unit_zero (S := S2048x4096) offZero, View.ld_unit_zero (S := S256x4096) offZero,
    View.ld_unit_zero (S := S2048x1) offZero]

theorem soutA1 (hc0 : cond0_0 i) (hc1 : ¬cond0_1 i) :
    sout0_A_1 c i arg2 harg2 arg3 harg3 arg4 harg4 arg5 harg5 arg6 harg6 arg7 harg7 arg8 harg8 hc0 hc1 x0 x1 x2 = newSum x0 x1 (k0_pay4 (F := F)) (k0_pay5 (F := F)) := by
  -- two stores, the reset then the update; the update covers, and reads the reset value back
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x1) offZero]
  simp only [View.readCov_unit_zero (S := S2048x1) _ offZero, View.readAt_eq_ld, harg2.read_unread, harg3.read_unread,
    harg4.read_unread, harg5.read_unread, harg6.read_unread, harg7.read_unread, harg8.read_unread,
    View.ld_unit_zero (S := S2048x4096) offZero, View.ld_unit_zero (S := S256x4096) offZero,
    View.ld_unit_zero (S := S2048x1) offZero]

theorem soutA2 (hc0 : cond0_0 i) (hc1 : ¬cond0_1 i) :
    sout0_A_2 c i arg2 harg2 arg3 harg3 arg4 harg4 arg5 harg5 arg6 harg6 arg7 harg7 arg8 harg8 hc0 hc1 x0 x1 x2 = newPick i x0 x1 x2 (k0_pay6 (F := F)) := by
  -- two stores, the reset then the update; the update covers, and reads the reset value back
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x1) offZero]
  simp only [View.readCov_unit_zero (S := S2048x1) _ offZero, View.readAt_eq_ld, harg2.read_unread, harg3.read_unread,
    harg4.read_unread, harg5.read_unread, harg6.read_unread, harg7.read_unread, harg8.read_unread,
    View.ld_unit_zero (S := S2048x4096) offZero, View.ld_unit_zero (S := S256x4096) offZero,
    View.ld_unit_zero (S := S2048x1) offZero]

theorem soutB0 (hc0 : ¬cond0_0 i) (hc1 : ¬cond0_1 i) :
    sout0_B_0 c i arg2 harg2 arg3 harg3 arg4 harg4 arg5 harg5 arg6 harg6 arg7 harg7 arg8 harg8 hc0 hc1 x0 x1 x2 xs0 xs1 xs2 = newMax x0 x1 xs0 := by
  -- one covering store, whose loads read the whole buffers
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero offZero]
  simp only [View.readCov_unit_zero (S := S2048x1) _ offZero, View.readAt_eq_ld, harg2.read_unread, harg3.read_unread,
    harg4.read_unread, harg5.read_unread, harg6.read_unread, harg7.read_unread, harg8.read_unread,
    View.ld_unit_zero (S := S2048x4096) offZero, View.ld_unit_zero (S := S256x4096) offZero,
    View.ld_unit_zero (S := S2048x1) offZero]

theorem soutB1 (hc0 : ¬cond0_0 i) (hc1 : ¬cond0_1 i) :
    sout0_B_1 c i arg2 harg2 arg3 harg3 arg4 harg4 arg5 harg5 arg6 harg6 arg7 harg7 arg8 harg8 hc0 hc1 x0 x1 x2 xs0 xs1 xs2 = newSum x0 x1 xs0 xs1 := by
  -- one covering store, whose loads read the whole buffers
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero offZero]
  simp only [View.readCov_unit_zero (S := S2048x1) _ offZero, View.readAt_eq_ld, harg2.read_unread, harg3.read_unread,
    harg4.read_unread, harg5.read_unread, harg6.read_unread, harg7.read_unread, harg8.read_unread,
    View.ld_unit_zero (S := S2048x4096) offZero, View.ld_unit_zero (S := S256x4096) offZero,
    View.ld_unit_zero (S := S2048x1) offZero]

theorem soutB2 (hc0 : ¬cond0_0 i) (hc1 : ¬cond0_1 i) :
    sout0_B_2 c i arg2 harg2 arg3 harg3 arg4 harg4 arg5 harg5 arg6 harg6 arg7 harg7 arg8 harg8 hc0 hc1 x0 x1 x2 xs0 xs1 xs2 = newPick i x0 x1 x2 xs2 := by
  -- one covering store, whose loads read the whole buffers
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero offZero]
  simp only [View.readCov_unit_zero (S := S2048x1) _ offZero, View.readAt_eq_ld, harg2.read_unread, harg3.read_unread,
    harg4.read_unread, harg5.read_unread, harg6.read_unread, harg7.read_unread, harg8.read_unread,
    View.ld_unit_zero (S := S2048x4096) offZero, View.ld_unit_zero (S := S256x4096) offZero,
    View.ld_unit_zero (S := S2048x1) offZero]

theorem soutC0 (hc0 : ¬cond0_0 i) (hc1 : cond0_1 i) :
    sout0_C_0 c i arg2 harg2 arg3 harg3 arg4 harg4 arg5 harg5 arg6 harg6 arg7 harg7 arg8 harg8 hc0 hc1 x0 x1 x2 xs0 xs1 xs2 = newMax x0 x1 xs0 := by
  -- one covering store, whose loads read the whole buffers
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero offZero]
  simp only [View.readCov_unit_zero (S := S2048x1) _ offZero, View.readAt_eq_ld, harg2.read_unread, harg3.read_unread,
    harg4.read_unread, harg5.read_unread, harg6.read_unread, harg7.read_unread, harg8.read_unread,
    View.ld_unit_zero (S := S2048x4096) offZero, View.ld_unit_zero (S := S256x4096) offZero,
    View.ld_unit_zero (S := S2048x1) offZero]

theorem soutC1 (hc0 : ¬cond0_0 i) (hc1 : cond0_1 i) :
    sout0_C_1 c i arg2 harg2 arg3 harg3 arg4 harg4 arg5 harg5 arg6 harg6 arg7 harg7 arg8 harg8 hc0 hc1 x0 x1 x2 xs0 xs1 xs2 = newSum x0 x1 xs0 xs1 := by
  -- one covering store, whose loads read the whole buffers
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero offZero]
  simp only [View.readCov_unit_zero (S := S2048x1) _ offZero, View.readAt_eq_ld, harg2.read_unread, harg3.read_unread,
    harg4.read_unread, harg5.read_unread, harg6.read_unread, harg7.read_unread, harg8.read_unread,
    View.ld_unit_zero (S := S2048x4096) offZero, View.ld_unit_zero (S := S256x4096) offZero,
    View.ld_unit_zero (S := S2048x1) offZero]

theorem soutC2 (hc0 : ¬cond0_0 i) (hc1 : cond0_1 i) :
    sout0_C_2 c i arg2 harg2 arg3 harg3 arg4 harg4 arg5 harg5 arg6 harg6 arg7 harg7 arg8 harg8 hc0 hc1 x0 x1 x2 xs0 xs1 xs2 = newPick i x0 x1 x2 xs2 := by
  -- one covering store, whose loads read the whole buffers
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero offZero]
  simp only [View.readCov_unit_zero (S := S2048x1) _ offZero, View.readAt_eq_ld, harg2.read_unread, harg3.read_unread,
    harg4.read_unread, harg5.read_unread, harg6.read_unread, harg7.read_unread, harg8.read_unread,
    View.ld_unit_zero (S := S2048x4096) offZero, View.ld_unit_zero (S := S256x4096) offZero,
    View.ld_unit_zero (S := S2048x1) offZero]

/-- The output block of the last tile: the row losses from the three scratch buffers as just updated. -/
theorem outC3 (hc0 : ¬cond0_0 i) (hc1 : cond0_1 i) :
    out0_C_3 c i arg2 harg2 arg3 harg3 arg4 harg4 arg5 harg5 arg6 harg6 arg7 harg7 arg8 harg8 hc0 hc1 x0 x1 x2 xs0 xs1 xs2
      = k0_pay3 (k0_pay8 x2) (newMax x0 x1 xs0) (newSum x0 x1 xs0 xs1) (newPick i x0 x1 x2 xs2) := by
  -- one covering store; its three scratch operands are loads of what the case's own stores just left
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero offZero]
  simp only [View.readCov_unit_zero (S := S2048x1) _ offZero, View.readAt_eq_ld, harg2.read_unread, harg3.read_unread,
    harg4.read_unread, harg5.read_unread, harg6.read_unread, harg7.read_unread, harg8.read_unread,
    View.ld_unit_zero (S := S2048x4096) offZero, View.ld_unit_zero (S := S256x4096) offZero,
    View.ld_unit_zero (S := S2048x1) offZero]

end Cert.KernelIdeal.KPieces

end
-- ==== Proof.KPayload.lean ====
/-
  The kernel body's payloads read at a row, on the extended reals.

  For a block of 2048 input rows `x0` and a tile of 256 weight rows `x1`, the tile's scores are
  s(r, k) = ∑ h, x0(r, h) · x1(k, h) (a product into a zero accumulator; narrowing a float is the identity here).
  Per row r, over a maximum, a sum and a label score found in the scratch:
    the new maximum is the larger of the old one and the tile's maximum (a fold of max from −∞);
    the rescaling factor is e^(old maximum − new maximum), a weight e^(s(r, k) − new maximum);
    the new sum is old sum · factor + ∑ k, weight(r, k);
    the new label score is the old one plus the tile's scores at the columns whose class number,
      256 · (tile number) + k as a 32-bit word, is the row's label;
    the row loss is 0 for the ignored label and (maximum + log sum) − label score otherwise.
-/
import proofs.«402656_j75977971466920_3_alg».proof.Proof.Gen.KernelIdeal.Skeleton
import proofs.«402656_j75977971466920_3_alg».proof.Proof.Spec
import proofs.«402656_j75977971466920_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPayload

open Cert.KernelIdeal Cert.KernelIdeal.Gen Idealize.ShloMosaic Idealize.ShloMosaic.ValueIdx

variable (x0 : Vec Ideal S2048x4096 .bf16) (x1 : Vec Ideal S256x4096 .f32) (x2 : Vec Ideal S2048x1 .i32)

/-- The product's left operand is read at the output's row … -/
theorem lhs_axis0 (i : S2048x256.Idx) (q : dot_S2048x4096_S256x4096_S2048x256_1_1_0_0_n_n.contr.Idx) :
    (dot_S2048x4096_S256x4096_S2048x256_1_1_0_0_n_n.lhsIdx i q 0).val = (i 0).val := by
  unfold DotDims.lhsIdx
  rw [dif_neg (show ¬(0 : Fin S2048x4096.rank) ∈ dot_S2048x4096_S256x4096_S2048x256_1_1_0_0_n_n.lhsBatch by decide), dif_pos (show (0 : Fin S2048x4096.rank) ∈ dot_S2048x4096_S256x4096_S2048x256_1_1_0_0_n_n.lhsNonContracting by decide)]
  rfl
/-- … and at the contraction's coordinate. -/
theorem lhs_axis1 (i : S2048x256.Idx) (q : dot_S2048x4096_S256x4096_S2048x256_1_1_0_0_n_n.contr.Idx) :
    (dot_S2048x4096_S256x4096_S2048x256_1_1_0_0_n_n.lhsIdx i q 1).val = (q ⟨0, by decide⟩).val :=
  dot_S2048x4096_S256x4096_S2048x256_1_1_0_0_n_n.lhsIdx_val_of_single rfl i q
/-- The product's right operand is read at the output's column … -/
theorem rhs_axis0 (i : S2048x256.Idx) (q : dot_S2048x4096_S256x4096_S2048x256_1_1_0_0_n_n.contr.Idx) :
    (dot_S2048x4096_S256x4096_S2048x256_1_1_0_0_n_n.rhsIdx i q 0).val = (i 1).val := by
  unfold DotDims.rhsIdx
  rw [dif_neg (show ¬(0 : Fin S256x4096.rank) ∈ dot_S2048x4096_S256x4096_S2048x256_1_1_0_0_n_n.rhsBatch by decide), dif_pos (show (0 : Fin S256x4096.rank) ∈ dot_S2048x4096_S256x4096_S2048x256_1_1_0_0_n_n.rhsNonContracting by decide)]
  rfl
/-- … and at the contraction's coordinate. -/
theorem rhs_axis1 (i : S2048x256.Idx) (q : dot_S2048x4096_S256x4096_S2048x256_1_1_0_0_n_n.contr.Idx) :
    (dot_S2048x4096_S256x4096_S2048x256_1_1_0_0_n_n.rhsIdx i q 1).val = (q ⟨0, by decide⟩).val :=
  dot_S2048x4096_S256x4096_S2048x256_1_1_0_0_n_n.rhsIdx_val_of_single rfl i q

/-- The tile's score of row r against weight row k. -/
theorem pay7_apply (r : Fin 2048) (k : Fin 256) :
    k0_pay7 (F := Ideal) x0 x1 (ix2 r k) = ∑ h : Fin 4096, x0 (ix2 r h) * x1 (ix2 k h) := by
  unfold k0_pay7
  refine (Ideal.matmul_constant_zero_apply dot_S2048x4096_S256x4096_S2048x256_1_1_0_0_n_n none _ _ (ix2 r k)).trans ?_
  rw [← Equiv.sum_comp (contrEquiv1 dot_S2048x4096_S256x4096_S2048x256_1_1_0_0_n_n 4096 rfl rfl).symm]
  refine Finset.sum_congr rfl fun h _ => ?_
  have hk := contrEquiv1_symm_val dot_S2048x4096_S256x4096_S2048x256_1_1_0_0_n_n 4096 rfl rfl h
  have el : dot_S2048x4096_S256x4096_S2048x256_1_1_0_0_n_n.lhsIdx (ix2 r k) ((contrEquiv1 dot_S2048x4096_S256x4096_S2048x256_1_1_0_0_n_n 4096 rfl rfl).symm h) = ix2 r h := funext fun a => Fin.ext (by
    match a with
    | ⟨0, _⟩ => exact lhs_axis0 _ _
    | ⟨1, _⟩ => exact (lhs_axis1 _ _).trans hk)
  have er : dot_S2048x4096_S256x4096_S2048x256_1_1_0_0_n_n.rhsIdx (ix2 r k) ((contrEquiv1 dot_S2048x4096_S256x4096_S2048x256_1_1_0_0_n_n 4096 rfl rfl).symm h) = ix2 k h := funext fun a => Fin.ext (by
    match a with
    | ⟨0, _⟩ => exact rhs_axis0 _ _
    | ⟨1, _⟩ => exact (rhs_axis1 _ _).trans hk)
  rw [el, er, shapeCast_self]
  rfl

theorem pay4_apply (r : Fin 2048) : k0_pay4 (F := Ideal) (ix2 r (0 : Fin 1)) = (⊥ : EReal) := by
  unfold k0_pay4
  rw [shapeCast_self]
  show Ideal.ofBits .f32 0xFF800000#32 = ⊥
  simp [Ideal.ofBits, Ideal.ieee]

theorem pay5_apply (r : Fin 2048) : k0_pay5 (F := Ideal) (ix2 r (0 : Fin 1)) = (0 : EReal) := by
  unfold k0_pay5
  rw [shapeCast_self]
  exact Ideal.ofBits_zero_f32

theorem pay6_apply (r : Fin 2048) : k0_pay6 (F := Ideal) (ix2 r (0 : Fin 1)) = (0 : EReal) := by
  unfold k0_pay6
  rw [shapeCast_self]
  exact Ideal.ofBits_zero_f32

theorem pay8_apply (r : Fin 2048) : k0_pay8 (F := Ideal) x2 (ix2 r (0 : Fin 1)) = x2 (ix2 r (0 : Fin 1)) := by
  unfold k0_pay8
  rw [shapeCast_self]

theorem pay2_apply (v28 : FVec Ideal S2048x1 .f32) (r : Fin 2048) :
    k0_pay2 (F := Ideal) v28 (ix2 r (0 : Fin 1)) = v28 (ix2 r (0 : Fin 1)) := by
  unfold k0_pay2
  rw [shapeCast_self]

/-- The new maximum of row r. -/
theorem pay10_apply (v27 : Vec Ideal S2048x1 .f32) (r : Fin 2048) :
    k0_pay10 (F := Ideal) x0 x1 v27 (ix2 r (0 : Fin 1))
      = max (v27 (ix2 r (0 : Fin 1)))
          ((Finset.univ : Finset (Fin 256)).fold max (⊥ : EReal) (fun k => k0_pay7 (F := Ideal) x0 x1 (ix2 r k))) := by
  unfold k0_pay10
  refine (maximumf_apply _ _ _).trans ?_
  refine congrArg (max (v27 (ix2 r (0 : Fin 1)))) ?_
  refine (Cert.Keepdims.shapeCast_a_a1_apply _ _ r 0).trans ?_
  refine (Cert.Keepdims.max_rows_f32 _ _ _ _ r).trans ?_
  have hbot : Ideal.ofBits .f32 0xFF800000#32 = (⊥ : EReal) := by simp [Ideal.ofBits, Ideal.ieee]
  rw [hbot]

/-- The rescaling factor of row r. -/
theorem pay11_apply (v27 v29 : Vec Ideal S2048x1 .f32) (r : Fin 2048) :
    k0_pay11 (F := Ideal) x0 x1 v27 v29 (ix2 r (0 : Fin 1))
      = Ideal.exp (v29 (ix2 r (0 : Fin 1)) - k0_pay10 (F := Ideal) x0 x1 v27 (ix2 r (0 : Fin 1))) := by
  unfold k0_pay11
  rfl

/-- The weight of column k in row r. -/
theorem pay12_apply (v27 : Vec Ideal S2048x1 .f32) (r : Fin 2048) (k : Fin 256) :
    k0_pay12 (F := Ideal) x0 x1 v27 (ix2 r k)
      = Ideal.exp (k0_pay7 (F := Ideal) x0 x1 (ix2 r k) - k0_pay10 (F := Ideal) x0 x1 v27 (ix2 r (0 : Fin 1))) := by
  unfold k0_pay12
  show Ideal.exp (k0_pay7 (F := Ideal) x0 x1 (ix2 r k)
    - broadcastTo S2048x256 (k0_pay10 (F := Ideal) x0 x1 v27) broadcasts_S2048x1_S2048x256 (ix2 r k)) = _
  rw [Cert.Keepdims.broadcastTo_a1_ab_apply]

/-- The new sum of weights of row r. -/
theorem pay1_apply (v31 : FVec Ideal S2048x1 .f32) (v34 : FVec Ideal S2048x256 .f32) (v35 : Vec Ideal S2048x1 .f32) (r : Fin 2048) :
    k0_pay1 (F := Ideal) v31 v34 v35 (ix2 r (0 : Fin 1))
      = v35 (ix2 r (0 : Fin 1)) * v31 (ix2 r (0 : Fin 1)) + ∑ k : Fin 256, v34 (ix2 r k) := by
  unfold k0_pay1
  rw [shapeCast_self]
  refine (addf_apply _ _ _).trans ?_
  refine congrArg (v35 (ix2 r (0 : Fin 1)) * v31 (ix2 r (0 : Fin 1)) + ·) ?_
  refine (Cert.Keepdims.shapeCast_a_a1_apply _ _ r 0).trans ?_
  exact Cert.Keepdims.add_rows_f32 _ _ _ _ r

/-- A select on "the words are equal" is the `if` on their equality. -/
theorem select_cmpi_eq {α : Type} {w : ℕ} (a b : BitVec w) (A B : α) :
    Scalar.select (IntOp.cmpi .eq a b) A B = if a = b then A else B := by
  by_cases h : a = b
  · have e : IntOp.cmpi .eq a b = 1#1 := by subst h; simp [IntOp.cmpi]
    rw [e, if_pos h]; exact select_one _ _
  · have e : IntOp.cmpi .eq a b = 0#1 := by
      show BitVec.ofBool (a == b) = 0#1
      rw [beq_eq_false_iff_ne.mpr h]; rfl
    rw [e, if_neg h]; exact select_zero _ _

/-- A select on "the words differ" is the `if` on their equality with the branches exchanged. -/
theorem select_cmpi_ne {α : Type} {w : ℕ} (a b : BitVec w) (A B : α) :
    Scalar.select (IntOp.cmpi .ne a b) A B = if a = b then B else A := by
  by_cases h : a = b
  · have e : IntOp.cmpi .ne a b = 0#1 := by subst h; simp [IntOp.cmpi]
    rw [e, if_pos h]; exact select_zero _ _
  · have e : IntOp.cmpi .ne a b = 1#1 := by
      show BitVec.ofBool (a != b) = 1#1
      rw [bne_iff_ne.mpr h]; rfl
    rw [e, if_neg h]; exact select_one _ _

/-- The class number of column k of tile t, as the kernel computes it in 32-bit words. -/
theorem class_word (t k : ℕ) :
    IntOp.addi (Scalar.muli (BitVec.ofNat 32 t) 256#32) (BitVec.ofNat 32 k) = BitVec.ofNat 32 (256 * t + k) := by
  show BitVec.ofNat 32 t * 256#32 + BitVec.ofNat 32 k = _
  apply BitVec.eq_of_toNat_eq
  simp only [BitVec.toNat_add, BitVec.toNat_mul, BitVec.toNat_ofNat]
  omega

/-- The new label score of row r: the old one plus the tile's scores at the label's column. -/
theorem pay9_apply (i : grid0.Coords) (v16 : Vec Ideal S2048x1 .f32) (r : Fin 2048) :
    k0_pay9 (F := Ideal) i x0 x1 x2 v16 (ix2 r (0 : Fin 1))
      = v16 (ix2 r (0 : Fin 1))
        + ∑ k : Fin 256, (if BitVec.ofNat 32 (256 * (i 1).val + k.val) = x2 (ix2 r (0 : Fin 1))
            then k0_pay7 (F := Ideal) x0 x1 (ix2 r k) else (0 : EReal)) := by
  unfold k0_pay9
  dsimp only
  rw [shapeCast_self]
  refine (addf_apply _ _ _).trans ?_
  refine congrArg (v16 (ix2 r (0 : Fin 1)) + ·) ?_
  refine (Cert.Keepdims.shapeCast_a_a1_apply _ _ r 0).trans ?_
  refine (Cert.Keepdims.add_rows_f32 _ _ _ _ r).trans ?_
  refine Finset.sum_congr rfl fun k _ => ?_
  show Scalar.select (IntOp.cmpi .eq
        (IntOp.addi (Scalar.muli (BitVec.ofNat 32 (i 1).val) 256#32) (iota .tc S2048x256 32 [1] iota_S2048x256_d1_w32 (ix2 r k)))
        (broadcastTo S2048x256 (k0_pay8 (F := Ideal) x2) broadcasts_S2048x1_S2048x256 (ix2 r k)))
      (k0_pay7 (F := Ideal) x0 x1 (ix2 r k)) (Ideal.ofBits .f32 0x00000000#32) = _
  rw [select_cmpi_eq, Ideal.ofBits_zero_f32, Cert.Keepdims.broadcastTo_a1_ab_apply, pay8_apply, iota_single_apply]
  show (if IntOp.addi (Scalar.muli (BitVec.ofNat 32 (i 1).val) 256#32) (BitVec.ofNat 32 k.val) = x2 (ix2 r (0 : Fin 1))
      then _ else _) = _
  rw [class_word]

/-- The loss of row r from its label, maximum, sum and label score. -/
theorem pay3_apply (v9 : IVec S2048x1 32) (v51 v52 v55 : Vec Ideal S2048x1 .f32) (r : Fin 2048) :
    k0_pay3 (F := Ideal) v9 v51 v52 v55 (ix2 r (0 : Fin 1))
      = if v9 (ix2 r (0 : Fin 1)) = Cert.Spec.ignoreWord then (0 : EReal)
        else (v51 (ix2 r (0 : Fin 1)) + Ideal.log (v52 (ix2 r (0 : Fin 1)))) - v55 (ix2 r (0 : Fin 1)) := by
  unfold k0_pay3
  show Scalar.select (IntOp.cmpi .ne (v9 (ix2 r (0 : Fin 1))) 4294967196#32)
      ((v51 (ix2 r (0 : Fin 1)) + Ideal.log (v52 (ix2 r (0 : Fin 1)))) - v55 (ix2 r (0 : Fin 1)))
      (Ideal.ofBits .f32 0x00000000#32) = _
  rw [select_cmpi_ne, Ideal.ofBits_zero_f32]

end Cert.KernelIdeal.KPayload

end
-- ==== Proof.KBlocks.lean ====
/-
  The pipeline's blocks as parts of the argument arrays.

  Grid point t (0 … 499) works on row block t / 125 (rows 2048 · (t / 125) … + 2047) and tile t % 125 (classes
  256 · (t % 125) … + 255). The first window's block is those rows of the inputs — the array the region finds is the
  inputs narrowed to the 16-bit format, which on the extended reals is the inputs themselves —; the second window's
  block is the tile's rows of the weights; the third window's block is those rows of the labels, the label vector
  having been laid out as one column before the region.
-/
import proofs.«402656_j75977971466920_3_alg».proof.Proof.Gen.KernelIdeal.Frame
import proofs.«402656_j75977971466920_3_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KBlocks

open Cert.KernelIdeal Cert.KernelIdeal.Gen Idealize.ShloMosaic Idealize.ShloMosaic.TcCoe Idealize.ShloMosaic.ValueIdx
open Idealize.SL Idealize.SL.Sem

variable (m : (ℓ : Loc nD τ sig) → Buf (Elt Ideal) ℓ)

/-- The three argument arrays of core c. -/
abbrev Xm (c : Dev nD) : Cert.Spec.SX.Idx → EReal := m ((c.tc : Thread nD τ).loc main_arg0)
abbrev Wm (c : Dev nD) : Cert.Spec.SW.Idx → EReal := m ((c.tc : Thread nD τ).loc main_arg1)
abbrev Tm (c : Dev nD) : Cert.Spec.ST.Idx → BitVec 32 := m ((c.tc : Thread nD τ).loc main_arg2)

/-- The three input blocks of point t, at their literal types. -/
abbrev xb (c : Dev nD) (t : Fin cfg0.N) : Vec Ideal S2048x4096 .bf16 := iblk m c 0 t
abbrev wb (c : Dev nD) (t : Fin cfg0.N) : Vec Ideal S256x4096 .f32 := iblk m c 1 t
abbrev tb (c : Dev nD) (t : Fin cfg0.N) : Vec Ideal S2048x1 .i32 := iblk m c 2 t

/-- Row r of point t's row block, as a row of the whole arrays. -/
def rowOf (t : Fin cfg0.N) (r : Fin 2048) : Fin 8192 :=
  ⟨2048 * (t.val / 125) + r.val, by have := t.isLt; have h : cfg0.N = 500 := N_0; have := r.isLt; omega⟩

/-- Point t's tile. -/
def tileOf (t : Fin cfg0.N) : Fin 125 := ⟨t.val % 125, Nat.mod_lt _ (by decide)⟩

/-- The tile number is the point's second grid coordinate. -/
theorem coord1 (t : Fin cfg0.N) : ((grid0.coords t) 1).val = t.val % 125 :=
  (by decide +kernel : ∀ t : Fin grid0.N, ((grid0.coords t) 1).val = t.val % 125) t

/-- The index maps over the grid: the first and third windows move with the row block, the second with the tile; none
    moves along its second axis. -/
theorem idx_facts : ∀ t : Fin cfg0.N, win0_0.index t (0 : Fin 2) = t.val / 125 ∧ win0_0.index t (1 : Fin 2) = 0
    ∧ win0_1.index t (0 : Fin 2) = t.val % 125 ∧ win0_1.index t (1 : Fin 2) = 0
    ∧ win0_2.index t (0 : Fin 2) = t.val / 125 ∧ win0_2.index t (1 : Fin 2) = 0 :=
  (by decide +kernel : ∀ t : Fin grid0.N, _)

/-- The array the first window reads: the inputs narrowed. -/
theorem V_main_v0 (c : Dev nD) : (V m c main_v0 : S8192x4096.Idx → EReal) = Xm m c := by
  have e : (V m c main_v0 : FVec Ideal S8192x4096 .bf16)
      = (truncf .bf16 (m ((c.tc : Thread nD τ).loc main_arg0) : FVec Ideal S8192x4096 .f32) bitsLt_bf16_f32 : FVec Ideal S8192x4096 .bf16) := by
    show StableHlo.after hostOps0 (fun b => m (c, b)) (Proc.devRef .tc main_v0) = _
    after_results
  rw [e]
  rfl

/-- The array the third window reads: the labels as one column. -/
theorem V_main_v1 (c : Dev nD) :
    (V m c main_v1 : S8192x1.Idx → BitVec 32) = shapeCast S8192x1 (m ((c.tc : Thread nD τ).loc main_arg2)) shapeCasts_S8192_S8192x1 := by
  show StableHlo.after hostOps0 (fun b => m (c, b)) (Proc.devRef .tc main_v1) = _
  after_results
  rfl

theorem xb_apply (c : Dev nD) (t : Fin cfg0.N) (r : Fin 2048) (h : Fin 4096) :
    xb m c t (ix2 r h) = Xm m c (ix2 (rowOf t r) h) := by
  obtain ⟨e0, e1, -, -, -, -⟩ := idx_facts t
  show V m c main_v0 (((cfg0.win 0).blk t).view.emb (ix2 r h)) = _
  rw [V_main_v0]
  apply congrArg
  funext a; apply Fin.ext
  match a with
  | ⟨0, _⟩ => show win0_0.index t (0 : Fin 2) * 2048 + 1 * r.val = 2048 * (t.val / 125) + r.val; omega
  | ⟨1, _⟩ => show win0_0.index t (1 : Fin 2) * 4096 + 1 * h.val = h.val; omega

theorem wb_apply (c : Dev nD) (t : Fin cfg0.N) (k : Fin 256) (h : Fin 4096) :
    wb m c t (ix2 k h) = Wm m c (ix2 (Cert.Spec.col (tileOf t) k) h) := by
  obtain ⟨-, -, e0, e1, -, -⟩ := idx_facts t
  show V m c main_arg1 (((cfg0.win 1).blk t).view.emb (ix2 k h)) = _
  rw [V_main_arg1]
  apply congrArg
  funext a; apply Fin.ext
  match a with
  | ⟨0, _⟩ => show win0_1.index t (0 : Fin 2) * 256 + 1 * k.val = 256 * (t.val % 125) + k.val; omega
  | ⟨1, _⟩ => show win0_1.index t (1 : Fin 2) * 4096 + 1 * h.val = h.val; omega

theorem tb_apply (c : Dev nD) (t : Fin cfg0.N) (r : Fin 2048) :
    tb m c t (ix2 r (0 : Fin 1)) = Tm m c (ix1 (rowOf t r)) := by
  obtain ⟨-, -, -, -, e0, e1⟩ := idx_facts t
  show V m c main_v1 (((cfg0.win 2).blk t).view.emb (ix2 r (0 : Fin 1))) = _
  rw [V_main_v1]
  refine shapeCast_apply _ _ _ _ ?_
  refine (Shape.rowMajor_val_one (d := ![8192]) _).trans (Eq.trans ?_ (Shape.rowMajor_val_two (d := ![8192, 1]) _).symm)
  show 2048 * (t.val / 125) + r.val
    = (win0_2.index t (0 : Fin 2) * 2048 + 1 * r.val) * 1 + (win0_2.index t (1 : Fin 2) * 1 + 1 * 0)
  omega

end Cert.KernelIdeal.KBlocks

end
-- ==== Proof.KInvariant.lean ====
/-
  What the carried scratch buffers and the output block hold after each grid point.

  After point t, row r of the three scratch buffers holds the running maximum, the running sum of weights and the
  label's score of row (t / 125) · 2048 + r of the whole arrays over the first t % 125 + 1 tiles of classes; and after a
  row block's last tile the output block holds the rows' losses. By induction over the points: the first tile of
  a row block starts from −∞, 0, 0, every later tile from what the tile before left.
-/
import proofs.«402656_j75977971466920_3_alg».proof.Proof.KPieces
import proofs.«402656_j75977971466920_3_alg».proof.Proof.KPayload
import proofs.«402656_j75977971466920_3_alg».proof.Proof.KBlocks
import proofs.«402656_j75977971466920_3_alg».proof.Proof.Fold

set_option maxRecDepth 16384

noncomputable section

open scoped BigOperators

namespace Cert.KernelIdeal.KInvariant

open Cert.KernelIdeal Cert.KernelIdeal.Gen Cert.KernelIdeal.KBlocks Idealize.ShloMosaic Idealize.ShloMosaic.TcCoe Idealize.ShloMosaic.ValueIdx
open Idealize.SL Idealize.SL.Sem
open Cert.Spec (mAt lAt gAt col AllReal)

/-! ## One tile's update of one row -/

/-- One tile's update of row r. If the tile's scores of the row are the row's scores L at the tile's classes,
    the tile number is v, the row's label is tw, and the scratch holds the three running quantities after v
    tiles, then the update leaves them after v + 1 tiles. -/
theorem step_row (i : grid0.Coords) (x0 : Vec Ideal S2048x4096 .bf16) (x1 : Vec Ideal S256x4096 .f32) (x2 : Vec Ideal S2048x1 .i32)
    (s0 s1 s2 : Vec Ideal S2048x1 .f32) (r : Fin 2048) (L : Fin 32000 → EReal) (hL : AllReal L) (v : Fin 125) (tw : BitVec 32)
    (hi : (i 1).val = v.val)
    (hs : ∀ k : Fin 256, k0_pay7 (F := Ideal) x0 x1 (ix2 r k) = L (col v k))
    (ht : x2 (ix2 r (0 : Fin 1)) = tw)
    (h0 : s0 (ix2 r (0 : Fin 1)) = mAt L v.val) (h1 : s1 (ix2 r (0 : Fin 1)) = lAt L v.val)
    (h2 : s2 (ix2 r (0 : Fin 1)) = gAt L tw v.val) :
    KPieces.newMax x0 x1 s0 (ix2 r (0 : Fin 1)) = mAt L (v.val + 1)
    ∧ KPieces.newSum x0 x1 s0 s1 (ix2 r (0 : Fin 1)) = lAt L (v.val + 1)
    ∧ KPieces.newPick i x0 x1 x2 s2 (ix2 r (0 : Fin 1)) = gAt L tw (v.val + 1) := by
  -- the new maximum
  have hmax : k0_pay10 (F := Ideal) x0 x1 s0 (ix2 r (0 : Fin 1)) = mAt L (v.val + 1) := by
    rw [KPayload.pay10_apply, h0, Cert.Fold.mAt_succ L v]
    congr 1
    exact congrArg (fun f => (Finset.univ : Finset (Fin 256)).fold max (⊥ : EReal) f) (funext hs)
  refine ⟨?_, ?_, ?_⟩
  · show k0_pay2 (F := Ideal) (k0_pay10 (F := Ideal) x0 x1 s0) (ix2 r (0 : Fin 1)) = _
    rw [KPayload.pay2_apply]
    exact hmax
  · show k0_pay1 (F := Ideal) (k0_pay11 (F := Ideal) x0 x1 s0 s0) (k0_pay12 (F := Ideal) x0 x1 s0) s1 (ix2 r (0 : Fin 1)) = _
    rw [KPayload.pay1_apply, KPayload.pay11_apply, hmax, h1, h0, Cert.Fold.lAt_succ L hL v]
    congr 1
    refine Finset.sum_congr rfl fun k _ => ?_
    rw [KPayload.pay12_apply, hmax, hs k]
  · show k0_pay9 (F := Ideal) i x0 x1 x2 s2 (ix2 r (0 : Fin 1)) = _
    rw [KPayload.pay9_apply, h2, ht, Cert.Fold.gAt_succ L tw v]
    congr 1
    refine Finset.sum_congr rfl fun k _ => ?_
    rw [hs k, hi]
    rfl

variable (m : (ℓ : Loc nD τ sig) → Buf (Elt Ideal) ℓ)

/-- The scores of row r of point t's row block against all classes. -/
abbrev scoresOf (c : Dev nD) (t : Fin cfg0.N) (r : Fin 2048) : Fin 32000 → EReal :=
  Cert.Spec.logit (Xm m c) (Wm m c) (rowOf t r)

/-- The tile's scores of a row are the row's scores at the tile's classes. -/
theorem tile_scores (c : Dev nD) (t : Fin cfg0.N) (r : Fin 2048) (k : Fin 256) :
    k0_pay7 (F := Ideal) (xb m c t) (wb m c t) (ix2 r k) = scoresOf m c t r (col (tileOf t) k) := by
  rw [KPayload.pay7_apply]
  unfold scoresOf Cert.Spec.logit
  refine Finset.sum_congr rfl fun h _ => ?_
  rw [xb_apply, wb_apply]

/-- Scores of real inputs and weights are real. -/
theorem scores_real (c : Dev nD) (hX : AllReal (Xm m c)) (hW : AllReal (Wm m c)) (t : Fin cfg0.N) (r : Fin 2048) :
    AllReal (scoresOf m c t r) :=
  Cert.Spec.logit_real (Xm m c) (Wm m c) hX hW (rowOf t r)

/-- A point that is not a row block's first shares its row block with the point before it. -/
theorem rowOf_pred (n : ℕ) (hn : n + 1 < cfg0.N) (h0 : ¬(n + 1) % 125 = 0) (r : Fin 2048) :
    rowOf ⟨n, Nat.lt_of_succ_lt hn⟩ r = rowOf ⟨n + 1, hn⟩ r := by
  unfold rowOf
  apply Fin.ext
  show 2048 * (n / 125) + r.val = 2048 * ((n + 1) / 125) + r.val
  have : n / 125 = (n + 1) / 125 := by omega
  rw [this]

/-- The three scratch buffers after point n. -/
theorem scratch_inv_nat (c : Dev nD) (hX : AllReal (Xm m c)) (hW : AllReal (Wm m c)) :
    ∀ (n : ℕ) (hn : n < cfg0.N) (r : Fin 2048),
      (outsAt0 m c n hn).2.1 (ix2 r (0 : Fin 1)) = mAt (scoresOf m c ⟨n, hn⟩ r) (n % 125 + 1)
      ∧ (outsAt0 m c n hn).2.2.1 (ix2 r (0 : Fin 1)) = lAt (scoresOf m c ⟨n, hn⟩ r) (n % 125 + 1)
      ∧ (outsAt0 m c n hn).2.2.2 (ix2 r (0 : Fin 1))
          = gAt (scoresOf m c ⟨n, hn⟩ r) (Tm m c (ix1 (rowOf ⟨n, hn⟩ r))) (n % 125 + 1) := by
  intro n
  induction n with
  | zero =>
    intro hn r
    have hN : (0 : ℕ) < 500 := by omega
    let t : Fin cfg0.N := ⟨0, hn⟩
    have h0 : t.val % 125 = 0 := rfl
    have h1 : ¬t.val % 125 = 124 := by show ¬(0 % 125 = 124); omega
    have e := outsAt0_A m c t h0 h1
    have key := step_row (grid0.coords t) (xb m c t) (wb m c t) (tb m c t) (k0_pay4 (F := Ideal)) (k0_pay5 (F := Ideal)) (k0_pay6 (F := Ideal)) r
      (scoresOf m c t r) (scores_real m c hX hW t r) (tileOf t) (Tm m c (ix1 (rowOf t r)))
      (coord1 t) (fun k => tile_scores m c t r k) (tb_apply m c t r)
      ((KPayload.pay4_apply r).trans (Cert.Fold.mAt_zero _).symm)
      ((KPayload.pay5_apply r).trans (Cert.Fold.lAt_zero _).symm)
      ((KPayload.pay6_apply r).trans (Cert.Fold.gAt_zero _ _).symm)
    show (outsAt0 m c t.val t.isLt).2.1 (ix2 r (0 : Fin 1)) = _ ∧ (outsAt0 m c t.val t.isLt).2.2.1 (ix2 r (0 : Fin 1)) = _
      ∧ (outsAt0 m c t.val t.isLt).2.2.2 (ix2 r (0 : Fin 1)) = _
    rw [e]
    dsimp only
    refine ⟨?_, ?_, ?_⟩
    · exact (congrFun (KPieces.soutA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) ((hcond0_0 t).mpr h0) (fun h => h1 ((hcond0_1 t).mp h))) (ix2 r (0 : Fin 1))).trans key.1
    · exact (congrFun (KPieces.soutA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) ((hcond0_0 t).mpr h0) (fun h => h1 ((hcond0_1 t).mp h))) (ix2 r (0 : Fin 1))).trans key.2.1
    · exact (congrFun (KPieces.soutA2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) ((hcond0_0 t).mpr h0) (fun h => h1 ((hcond0_1 t).mp h))) (ix2 r (0 : Fin 1))).trans key.2.2
  | succ n ih =>
    intro hn r
    let t : Fin cfg0.N := ⟨n + 1, hn⟩
    have hN : n + 1 < 500 := lt_of_lt_of_eq hn (show cfg0.N = 500 from N_0)
    by_cases h0 : t.val % 125 = 0
    · -- a row block's first tile: the scratch is reset before it is updated
      have h1 : ¬t.val % 125 = 124 := by omega
      have e := outsAt0_A m c t h0 h1
      have hv : (tileOf t).val = 0 := h0
      have key := step_row (grid0.coords t) (xb m c t) (wb m c t) (tb m c t) (k0_pay4 (F := Ideal)) (k0_pay5 (F := Ideal)) (k0_pay6 (F := Ideal)) r
        (scoresOf m c t r) (scores_real m c hX hW t r) (tileOf t) (Tm m c (ix1 (rowOf t r)))
        (coord1 t) (fun k => tile_scores m c t r k) (tb_apply m c t r)
        ((KPayload.pay4_apply r).trans (by rw [hv]; exact (Cert.Fold.mAt_zero _).symm))
        ((KPayload.pay5_apply r).trans (by rw [hv]; exact (Cert.Fold.lAt_zero _).symm))
        ((KPayload.pay6_apply r).trans (by rw [hv]; exact (Cert.Fold.gAt_zero _ _).symm))
      show (outsAt0 m c t.val t.isLt).2.1 (ix2 r (0 : Fin 1)) = _ ∧ (outsAt0 m c t.val t.isLt).2.2.1 (ix2 r (0 : Fin 1)) = _
        ∧ (outsAt0 m c t.val t.isLt).2.2.2 (ix2 r (0 : Fin 1)) = _
      rw [e]
      dsimp only
      refine ⟨?_, ?_, ?_⟩
      · exact (congrFun (KPieces.soutA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) ((hcond0_0 t).mpr h0) (fun h => h1 ((hcond0_1 t).mp h))) (ix2 r (0 : Fin 1))).trans key.1
      · exact (congrFun (KPieces.soutA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) ((hcond0_0 t).mpr h0) (fun h => h1 ((hcond0_1 t).mp h))) (ix2 r (0 : Fin 1))).trans key.2.1
      · exact (congrFun (KPieces.soutA2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) ((hcond0_0 t).mpr h0) (fun h => h1 ((hcond0_1 t).mp h))) (ix2 r (0 : Fin 1))).trans key.2.2
    · -- a later tile: the scratch holds what the tile before left, for the same rows
      have hprev := ih (Nat.lt_of_succ_lt hn) r
      have hrow : rowOf ⟨n, Nat.lt_of_succ_lt hn⟩ r = rowOf t r := rowOf_pred n hn h0 r
      have hmod : n % 125 + 1 = (tileOf t).val := by
        show n % 125 + 1 = (n + 1) % 125
        have : (n + 1) % 125 ≠ 0 := h0
        omega
      have hsc : scoresOf m c ⟨n, Nat.lt_of_succ_lt hn⟩ r = scoresOf m c t r := by unfold scoresOf; rw [hrow]
      rw [hsc, hrow, hmod] at hprev
      have hpm : t.val - 1 = n := rfl
      by_cases h1 : t.val % 125 = 124
      · have e := outsAt0_C m c t h0 h1
        have key := step_row (grid0.coords t) (xb m c t) (wb m c t) (tb m c t)
          (outsAt0 m c n (Nat.lt_of_succ_lt hn)).2.1 (outsAt0 m c n (Nat.lt_of_succ_lt hn)).2.2.1 (outsAt0 m c n (Nat.lt_of_succ_lt hn)).2.2.2 r
          (scoresOf m c t r) (scores_real m c hX hW t r) (tileOf t) (Tm m c (ix1 (rowOf t r)))
          (coord1 t) (fun k => tile_scores m c t r k) (tb_apply m c t r) hprev.1 hprev.2.1 hprev.2.2
        show (outsAt0 m c t.val t.isLt).2.1 (ix2 r (0 : Fin 1)) = _ ∧ (outsAt0 m c t.val t.isLt).2.2.1 (ix2 r (0 : Fin 1)) = _
          ∧ (outsAt0 m c t.val t.isLt).2.2.2 (ix2 r (0 : Fin 1)) = _
        rw [e]
        dsimp only
        refine ⟨?_, ?_, ?_⟩
        · exact (congrFun (KPieces.soutC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) _ _ _ (fun h => h0 ((hcond0_0 t).mp h)) ((hcond0_1 t).mpr h1)) (ix2 r (0 : Fin 1))).trans key.1
        · exact (congrFun (KPieces.soutC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) _ _ _ (fun h => h0 ((hcond0_0 t).mp h)) ((hcond0_1 t).mpr h1)) (ix2 r (0 : Fin 1))).trans key.2.1
        · exact (congrFun (KPieces.soutC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) _ _ _ (fun h => h0 ((hcond0_0 t).mp h)) ((hcond0_1 t).mpr h1)) (ix2 r (0 : Fin 1))).trans key.2.2
      · have e := outsAt0_B m c t h0 h1
        have key := step_row (grid0.coords t) (xb m c t) (wb m c t) (tb m c t)
          (outsAt0 m c n (Nat.lt_of_succ_lt hn)).2.1 (outsAt0 m c n (Nat.lt_of_succ_lt hn)).2.2.1 (outsAt0 m c n (Nat.lt_of_succ_lt hn)).2.2.2 r
          (scoresOf m c t r) (scores_real m c hX hW t r) (tileOf t) (Tm m c (ix1 (rowOf t r)))
          (coord1 t) (fun k => tile_scores m c t r k) (tb_apply m c t r) hprev.1 hprev.2.1 hprev.2.2
        show (outsAt0 m c t.val t.isLt).2.1 (ix2 r (0 : Fin 1)) = _ ∧ (outsAt0 m c t.val t.isLt).2.2.1 (ix2 r (0 : Fin 1)) = _
          ∧ (outsAt0 m c t.val t.isLt).2.2.2 (ix2 r (0 : Fin 1)) = _
        rw [e]
        dsimp only
        refine ⟨?_, ?_, ?_⟩
        · exact (congrFun (KPieces.soutB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) _ _ _ (fun h => h0 ((hcond0_0 t).mp h)) (fun h => h1 ((hcond0_1 t).mp h))) (ix2 r (0 : Fin 1))).trans key.1
        · exact (congrFun (KPieces.soutB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) _ _ _ (fun h => h0 ((hcond0_0 t).mp h)) (fun h => h1 ((hcond0_1 t).mp h))) (ix2 r (0 : Fin 1))).trans key.2.1
        · exact (congrFun (KPieces.soutB2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) _ _ _ (fun h => h0 ((hcond0_0 t).mp h)) (fun h => h1 ((hcond0_1 t).mp h))) (ix2 r (0 : Fin 1))).trans key.2.2

/-- The three scratch buffers after point t. -/
theorem scratch_inv (c : Dev nD) (hX : AllReal (Xm m c)) (hW : AllReal (Wm m c))
    (t : Fin cfg0.N) (r : Fin 2048) :
    (outsAt0 m c t.val t.isLt).2.1 (ix2 r (0 : Fin 1)) = mAt (scoresOf m c t r) (t.val % 125 + 1)
    ∧ (outsAt0 m c t.val t.isLt).2.2.1 (ix2 r (0 : Fin 1)) = lAt (scoresOf m c t r) (t.val % 125 + 1)
    ∧ (outsAt0 m c t.val t.isLt).2.2.2 (ix2 r (0 : Fin 1))
        = gAt (scoresOf m c t r) (Tm m c (ix1 (rowOf t r))) (t.val % 125 + 1) :=
  scratch_inv_nat m c hX hW t.val t.isLt r

/-- The output block after a row block's last tile: the rows' losses. -/
theorem out_inv (c : Dev nD) (hX : AllReal (Xm m c)) (hW : AllReal (Wm m c))
    (t : Fin cfg0.N) (h124 : t.val % 125 = 124) (r : Fin 2048) :
    (outsAt0 m c t.val t.isLt).1 (ix2 r (0 : Fin 1)) = Cert.Spec.nll (Xm m c) (Wm m c) (Tm m c) (rowOf t r) := by
  obtain ⟨n, hn⟩ := t
  cases n with
  | zero =>
    exfalso
    have h : (0 : ℕ) % 125 = 124 := h124
    omega
  | succ n =>
    let t : Fin cfg0.N := ⟨n + 1, hn⟩
    have hN : n + 1 < 500 := lt_of_lt_of_eq hn (show cfg0.N = 500 from N_0)
    have h1 : t.val % 125 = 124 := h124
    have h0 : ¬t.val % 125 = 0 := by omega
    -- the scratch before the point: what the tile before left, for the same rows
    have hprev := scratch_inv_nat m c hX hW n (Nat.lt_of_succ_lt hn) r
    have hrow : rowOf ⟨n, Nat.lt_of_succ_lt hn⟩ r = rowOf t r := rowOf_pred n hn h0 r
    have hmod : n % 125 + 1 = (tileOf t).val := by
      show n % 125 + 1 = (n + 1) % 125
      have : (n + 1) % 125 ≠ 0 := h0
      omega
    have hsc : scoresOf m c ⟨n, Nat.lt_of_succ_lt hn⟩ r = scoresOf m c t r := by unfold scoresOf; rw [hrow]
    rw [hsc, hrow, hmod] at hprev
    have key := step_row (grid0.coords t) (xb m c t) (wb m c t) (tb m c t)
      (outsAt0 m c n (Nat.lt_of_succ_lt hn)).2.1 (outsAt0 m c n (Nat.lt_of_succ_lt hn)).2.2.1 (outsAt0 m c n (Nat.lt_of_succ_lt hn)).2.2.2 r
      (scoresOf m c t r) (scores_real m c hX hW t r) (tileOf t) (Tm m c (ix1 (rowOf t r)))
      (coord1 t) (fun k => tile_scores m c t r k) (tb_apply m c t r) hprev.1 hprev.2.1 hprev.2.2
    have e := outsAt0_C m c t h0 h1
    show (outsAt0 m c t.val t.isLt).1 (ix2 r (0 : Fin 1)) = _
    rw [e]
    dsimp only
    refine (congrFun (KPieces.outC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (xb m c t) (wb m c t) (tb m c t) (outsAt0 m c n (Nat.lt_of_succ_lt hn)).2.1 (outsAt0 m c n (Nat.lt_of_succ_lt hn)).2.2.1 (outsAt0 m c n (Nat.lt_of_succ_lt hn)).2.2.2 (fun h => h0 ((hcond0_0 t).mp h)) ((hcond0_1 t).mpr h1)) (ix2 r (0 : Fin 1))).trans ?_
    rw [KPayload.pay3_apply, KPayload.pay8_apply, key.1, key.2.1, key.2.2, tb_apply]
    -- the last tile: all 125 tiles have been taken in
    have hv : (tileOf t).val + 1 = 125 := by
      show (n + 1) % 125 + 1 = 125
      have h1' : (n + 1) % 125 = 124 := h124
      omega
    rw [hv]
    rfl

end Cert.KernelIdeal.KInvariant

end
-- ==== Proof.KFinal.lean ====
/-
  The kernel program's result is the mean of the rows' losses.

  The output array [8192 × 1] is written back block by block, a row block after its last tile; the blocks tile the
  array, so after the region its entry (R, 0) is row R's loss. After the region the program sums that array, counts the
  labels that are not ignored (at least 1), and divides the sum by the count: the total of the rows' losses over that
  divisor.
-/
import proofs.«402656_j75977971466920_3_alg».proof.Proof.KInvariant
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.KFinal

open Cert.KernelIdeal Cert.KernelIdeal.Gen Cert.KernelIdeal.KBlocks Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The divisor: the number of labels that are not the ignored one, at least 1, as a float. -/
def divisor (T : IVec S8192 32) : FVec Ideal S_ .f32 :=
  sitofp .f32 (maxsi (Host.reduce IntOp.addi (extui 32 (cmpi .ne T (broadcastInDim S8192 ![] Facts₀.bcast_S_S8192 (constantI S_ 32 4294967196#32))) Facts₀.natLt_1_32)
    (constantI S_ 32 0#32) Facts₀.reducesTo_S8192_S_d0 Facts₀.h_S_) (constantI S_ 32 1#32))

/-- The rows' losses laid out as the output array: entry (R, 0) is row R's loss. -/
abbrev lossArr (c : Dev nD) : S8192x1.Idx → EReal :=
  fun j => Cert.Spec.nll (Xm m c) (Wm m c) (Tm m c) (j 0)

/-- The output window's block index at point t: row block t / 125, column block 0. -/
theorem outIndex : ∀ t : Fin cfg0.N, win0_3.index t (0 : Fin 2) = t.val / 125 ∧ win0_3.index t (1 : Fin 2) = 0 :=
  (by decide +kernel : ∀ t : Fin grid0.N, win0_3.index t (0 : Fin 2) = t.val / 125 ∧ win0_3.index t (1 : Fin 2) = 0)

/-- After a row block's last tile the output block holds at (r, 0) the loss of the block's row r. -/
theorem outBlock_apply (c : Dev nD) (hX : Cert.Spec.AllReal (Xm m c)) (hW : Cert.Spec.AllReal (Wm m c))
    (t : Fin cfg0.N) (h124 : t.val % 125 = 124) (y : S2048x1.Idx) :
    (outsAt0 m c t.val t.isLt).1 y = Cert.Spec.nll (Xm m c) (Wm m c) (Tm m c) (rowOf t (y 0)) := by
  obtain ⟨r, q, rfl⟩ : ∃ (r : Fin 2048) (q : Fin 1), y = ix2 r q := ⟨y 0, y 1, eq_ix2 y⟩
  obtain rfl : q = 0 := Subsingleton.elim _ _
  exact Cert.KernelIdeal.KInvariant.out_inv m c hX hW t h124 r

/-- What a row block's last point writes back is that block of the rows' losses. -/
theorem flushed_eq (c : Dev nD) (hX : Cert.Spec.AllReal (Xm m c)) (hW : Cert.Spec.AllReal (Wm m c))
    (t : Fin cfg0.N) (hf : (cfg0.win 3).flush t = true) :
    (dats m 0 c).flushed 3 t = ((cfg0.win 3).blk t).view.read (Elt Ideal) (lossArr m c) := by
  have h124 : t.val % 125 = 124 := (flush0_3 t).mp hf
  show (cfg0.win 3).cut (grid0.coords t) ((dats m 0 c).after 3 t) = _
  rw [after0_3]
  funext y
  show (outsAt0 m c t.val t.isLt).1 y = lossArr m c (((cfg0.win 3).blk t).view.emb y)
  refine (outBlock_apply m c hX hW t h124 y).trans ?_
  show Cert.Spec.nll (Xm m c) (Wm m c) (Tm m c) (rowOf t (y 0)) = Cert.Spec.nll (Xm m c) (Wm m c) (Tm m c) ((((cfg0.win 3).blk t).view.emb y) 0)
  congr 1
  apply Fin.ext
  obtain ⟨e0, e1⟩ := outIndex t
  show 2048 * (t.val / 125) + (y 0).val = win0_3.index t (0 : Fin 2) * 2048 + 1 * (y 0).val
  rw [e0]; omega

/-- An index of the output array is in point t's block iff each coordinate is in the block's range on its axis. -/
theorem mem_outBlk (t : Fin cfg0.N) (i : S8192x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v2).slice (win0_3.rect t)).set ↔ _
  rw [View.set_slice_whole, Rect.mem_set_unit]
  exact Iff.rfl

/-- The output array after the region: entry (R, 0) is row R's loss. -/
theorem final3 (c : Dev nD) (hX : Cert.Spec.AllReal (Xm m c)) (hW : Cert.Spec.AllReal (Wm m c)) :
    (dats m 0 c).arrAt 3 cfg0.N = (fun j : S8192x1.Idx => Cert.Spec.nll (Xm m c) (Wm m c) (Tm m c) (j 0)) := by
  refine (dats m 0 c).arrAt_eq_of_cover 3 (lossArr m c) (fun t ht => flushed_eq m c hX hW t ht) fun i => ?_
  have hi0 : (i 0).val < 8192 := (i 0).isLt
  have hi1 : (i 1).val < 1 := (i 1).isLt
  have hN : cfg0.N = 500 := N_0
  -- row R lies in row block R / 2048, written back after that block's last tile
  obtain ⟨t, ht⟩ : ∃ t : Fin cfg0.N, t.val = 125 * ((i 0).val / 2048) + 124 := ⟨⟨125 * ((i 0).val / 2048) + 124, by omega⟩, rfl⟩
  refine ⟨t, (flush0_3 t).mpr (by omega), ?_⟩
  rw [mem_outBlk]
  obtain ⟨e0, e1⟩ := outIndex t
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1 ≤ (i 1).val ∧ (i 1).val < win0_3.index t (1 : Fin 2) * 1 + 1; omega

/-- The sum of the output array over both its axes is the sum of the rows' losses. -/
theorem sum_lossArr (c : Dev nD) :
    ∑ j : S8192x1.Idx, lossArr m c j = Cert.Spec.total (Xm m c) (Wm m c) (Tm m c) := by
  rw [sum_idx2]
  unfold Cert.Spec.total
  refine Finset.sum_congr rfl fun R _ => ?_
  rw [Fin.sum_univ_one]

/-- What the operations after the region leave in the result: the sum of the output array over the count of the
    labels that are not ignored. -/
theorem tail_result (c : Dev nD) (hX : Cert.Spec.AllReal (Xm m c)) (hW : Cert.Spec.AllReal (Wm m c)) :
    Pipeline.afterTail₀ cfgs (dats m) 0 (V0 m) [hostOps1] c main_v10
      = (fun i => Ideal.div (Cert.Spec.total (Xm m c) (Wm m c) (Tm m c)) (divisor (Tm m c) i)) := by
  unfold Pipeline.afterTail₀
  show StableHlo.after hostOps1 _ (Proc.devRef .tc main_v10) = _
  after_results
  have e2 : Pipeline.withArrays (cfgs 0).spec c (V0 m c) (fun w => (dats m 0 c).arrAt w (cfgs 0).N) (Proc.devRef .tc main_v2)
      = lossArr m c :=
    (Pipeline.withArrays_arr spec0 launch0.win.arr_inj c _ _ 3).trans (final3 m c hX hW)
  have eT : Pipeline.withArrays (cfgs 0).spec c (V0 m c) (fun w => (dats m 0 c).arrAt w (cfgs 0).N) (Proc.devRef .tc main_arg2)
      = Tm m c :=
    (Pipeline.withArrays_of_ne _ c (V0 m c) _ main_arg2 (by exact (by decide : ∀ w, Pipeline.arrRef spec0 w ≠ main_arg2))).trans
      (V_main_arg2 m c)
  rw [e2, eT]
  funext i
  show Ideal.div (Host.reduceAdd (F := Ideal) (lossArr m c) (constant S_ .f32 0x00000000#32) Facts₀.reducesTo_S8192x1_S_d0_1 Facts₀.h_S_ i)
      (divisor (Tm m c) i) = _
  congr 1
  simp only [Host.reduceAdd, Ideal.hostReduceAdd_def]
  rw [Ideal.hostReduceAdd_total Facts₀.reducesTo_S8192x1_S_d0_1 (fun b => b.elim0) (lossArr m c) _ i, sum_lossArr]
  show Ideal.ofBits .f32 0x00000000#32 + _ = _
  rw [Ideal.ofBits_zero_f32, zero_add]

/-- The kernel program's run: it ends with its result at the total of the rows' losses over the divisor, the
    arguments unchanged. -/
theorem run (hX : ∀ c, Cert.Spec.AllReal (Xm m c)) (hW : ∀ c, Cert.Spec.AllReal (Wm m c)) :
    θ_run defs (onTc (τ := τ) (main (F := Ideal))) ⟨m, fun _ => 0, ρ⟩ (fun r => ∀ c : Dev nD,
      r.2.mem ((c.tc : Thread nD τ).loc main_v10)
          = (fun i => Ideal.div (Cert.Spec.total (Xm m c) (Wm m c) (Tm m c)) (divisor (Tm m c) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v10 (Pipeline.mem_restRefs_of main_v10 (by decide) (by decide))).trans (tail_result m c (hX c) (hW c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KFinal

end
-- ==== Proof.lean ====
/-
  A fused linear layer and cross-entropy loss: the kernel program against its reference, on the extended reals.

  Inputs X [8192 × 4096], weights W [32000 × 4096], labels T [8192]; under the precondition X and W are real and every
  label is the ignored one (−100) or a class number below 32000. Both programs return one number: the sum over the rows
  of the row losses — 0 for an ignored label, otherwise the log-sum-exp of the row's 32000 scores minus the label's
  score — divided by the number of labels not ignored (at least 1).

  The kernel computes each row's maximum and sum of exponentials in a stream over 125 tiles of 256 classes, rescaling
  the running sum whenever the running maximum grows, and finds the label's score in the tile that holds its class;
  the reference takes the log-softmax of whole rows and picks the label's log-probability. The rescaling is exact on
  the reals (e^(a − b) · e^(x − a) = e^(x − b)), the scores are real because the inputs are, and for real numbers
  (M + log S) − x = −((x − M) − log S): both results are the same total of row losses over the same divisor. The
  ideal pass rewrote nothing in the kernel, so the kernel's idealization is its own text.
-/
import proofs.«402656_j75977971466920_3_alg».proof.Defs
import proofs.«402656_j75977971466920_3_alg».proof.Proof.Gen.Kernel
import proofs.«402656_j75977971466920_3_alg».proof.Proof.Gen.Kernel.Frame
import proofs.«402656_j75977971466920_3_alg».proof.Proof.Gen.KernelIdeal
import proofs.«402656_j75977971466920_3_alg».proof.Proof.Gen.KernelIdeal.Frame
import proofs.«402656_j75977971466920_3_alg».proof.Proof.Gen.ReferenceIdeal
import proofs.«402656_j75977971466920_3_alg».proof.Proof.Gen.Pre_finite_inputs
import proofs.«402656_j75977971466920_3_alg».proof.Proof.RefRun
import proofs.«402656_j75977971466920_3_alg».proof.Proof.RefRead
import proofs.«402656_j75977971466920_3_alg».proof.Proof.RefValue
import proofs.«402656_j75977971466920_3_alg».proof.Proof.Pre
import proofs.«402656_j75977971466920_3_alg».proof.Proof.KFinal
import Idealize.ShloMosaic.Adequacy
import Idealize.ShloMosaic.Init

noncomputable section

namespace Cert.Proof

open Idealize.ShloMosaic Idealize.ShloMosaic.TcCoe Idealize.SL.Sem

/-- The kernel program runs and keeps its arguments, at the word level. -/
theorem frame_k : Cert.frame_Kernel := fun m ρ _ => Cert.Kernel.Gen.frame m ρ

/-- The same for its reading on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two programs' divisors are one function of the labels: the count of the labels that are not ignored, at least 1. -/
theorem divisor_eq (T : IVec Cert.KernelIdeal.S8192 32) (i : Cert.KernelIdeal.S_.Idx) :
    Cert.ReferenceIdeal.ReadP.val_main_v13 (F := Ideal) T i = Cert.KernelIdeal.KFinal.divisor T i := rfl

/-- Both programs end at the total of the rows' losses over the divisor. -/
theorem algebraic : Cert.algebraic_KernelIdeal_ReferenceIdeal := by
  intro m ρ m' ρ' hpre hagree
  -- what the precondition says of each core's arguments
  have hdec := fun c : Dev Cert.KernelIdeal.nD => Cert.PreDecode.decode _ _ _ (hpre c)
  refine ⟨fun c => fun i => Ideal.div (Cert.Spec.total (Cert.KernelIdeal.KBlocks.Xm m c) (Cert.KernelIdeal.KBlocks.Wm m c) (Cert.KernelIdeal.KBlocks.Tm m c))
      (Cert.KernelIdeal.KFinal.divisor (Cert.KernelIdeal.KBlocks.Tm m c) i),
    Cert.KernelIdeal.KFinal.run m ρ (fun c => (hdec c).1) (fun c => (hdec c).2.1), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v15_eq, (hagree c).1, (hagree c).2.1, (hagree c).2.2]
  rw [Cert.RefValue.ref_eq _ _ _ (hdec c).1 (hdec c).2.1 (hdec c).2.2]
  funext i
  exact congrArg _ (divisor_eq _ i)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
